-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S10000 : Shape := ⟨1, ![10000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S128 .f32) (main_arg5 : FVec F S128x64 .f32) (main_arg6 : FVec F S64 .f32) (main_arg7 : FVec F S64x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : FVec F S64x64 .f32) (main_arg8 : FVec F S64 .f32) (main_arg9 : IVec S1600000 32) (main_arg10 : IVec S1600000 32) (main_arg11 : IVec S10000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S10000 : Shape := ⟨1, ![10000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S10000x1 : Shape := ⟨2, ![10000, 1]⟩
abbrev S10000x128 : Shape := ⟨2, ![10000, 128]⟩
abbrev S10000x64 : Shape := ⟨2, ![10000, 64]⟩
abbrev S2000x128 : Shape := ⟨2, ![2000, 128]⟩
abbrev S2000x64 : Shape := ⟨2, ![2000, 64]⟩
abbrev S1x64 : Shape := ⟨2, ![1, 64]⟩

abbrev nBuf : Space → Nat
  | .hbm => 76
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1600000, .i32⟩
  | .hbm, ⟨10, _⟩ => ⟨S1600000, .i32⟩
  | .hbm, ⟨11, _⟩ => ⟨S10000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S50000x128, .f32⟩
  | .hbm, ⟨48, _⟩ => ⟨S1600000x1, .i32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S50000x128, .f32⟩
  | .hbm, ⟨63, _⟩ => ⟨S1600000x1, .i32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S10000, .i32⟩
  | .hbm, ⟨68, _⟩ => ⟨S10000, .i1⟩
  | .hbm, ⟨69, _⟩ => ⟨S_, .i32⟩
  | .hbm, ⟨70, _⟩ => ⟨S10000, .i32⟩
  | .hbm, ⟨71, _⟩ => ⟨S10000, .i32⟩
  | .hbm, ⟨72, _⟩ => ⟨S10000, .i32⟩
  | .hbm, ⟨73, _⟩ => ⟨S10000x1, .i32⟩
  | .hbm, ⟨74, _⟩ => ⟨S10000x128, .f32⟩
  | .hbm, ⟨75, _⟩ => ⟨S10000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S2000x128, .f32⟩
  | .local _ .vmem, ⟨29, _⟩ => ⟨S2000x128, .f32⟩
  | .local _ .vmem, ⟨30, _⟩ => ⟨S128x64, .f32⟩
  | .local _ .vmem, ⟨31, _⟩ => ⟨S64, .f32⟩
  | .local _ .vmem, ⟨32, _⟩ => ⟨S64x64, .f32⟩
  | .local _ .vmem, ⟨33, _⟩ => ⟨S64, .f32⟩
  | .local _ .vmem, ⟨34, _⟩ => ⟨S2000x64, .f32⟩
  | .local _ .vmem, ⟨35, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_11 : Ref sig .tc := ⟨.hbm, 66, rfl⟩
abbrev main_v41 : Ref sig .tc := ⟨.hbm, 67, rfl⟩
abbrev main_v42 : Ref sig .tc := ⟨.hbm, 68, rfl⟩
abbrev main_c_12 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S10000 : S_.BroadcastsInDim S10000 (![] : Fin 0 → Fin S10000.rank)
  bcast_S10000_S10000x1_0 : S10000.BroadcastsInDim S10000x1 (![0] : Fin 1 → Fin S10000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S10000x1_S10000x128_1_0_n_n_0_1_1128_wf : GatherDims.WF S50000x128 S10000x1 S10000x128 [1] [0] [] [0] [] 1 ![1, 128]
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S10000x128.size a
  hwx4_0 : ∀ i : grid4.Coords, EltTy.bits .f32 = 32 ∨ (Rect.block (s := S10000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S10000x64.size a
  hwx4_5 : ∀ i : grid4.Coords, EltTy.bits .f32 = 32 ∨ (Rect.block (s := S10000x64) S2000x64.size (cc4_transform_5 i) (hinb4_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S10000x1_S10000x128_1_0_n_n_0_1_1128 : GatherDims S50000x128 S10000x1 S10000x128 where
  offsetDims := [1]
  collapsedSliceDims := [0]
  operandBatchingDims := []
  startIndicesBatchingDims := []
  startIndexMap := [0]
  indexVectorDim := 1
  sliceSizes := ![1, 128]
  wf := gather_S50000x128_S10000x1_S10000x128_1_0_n_n_0_1_1128_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v47) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v48) S2000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S10000 : Shape := ⟨1, ![10000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S10000x1 : Shape := ⟨2, ![10000, 1]⟩
abbrev S10000x128 : Shape := ⟨2, ![10000, 128]⟩
abbrev S10000x64 : Shape := ⟨2, ![10000, 64]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1600000, .i32⟩
  | .hbm, ⟨10, _⟩ => ⟨S1600000, .i32⟩
  | .hbm, ⟨11, _⟩ => ⟨S10000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S50000x128, .f32⟩
  | .hbm, ⟨50, _⟩ => ⟨S1600000x1, .i32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S50000x128, .f32⟩
  | .hbm, ⟨74, _⟩ => ⟨S1600000x1, .i32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S10000, .i32⟩
  | .hbm, ⟨86, _⟩ => ⟨S10000, .i1⟩
  | .hbm, ⟨87, _⟩ => ⟨S_, .i32⟩
  | .hbm, ⟨88, _⟩ => ⟨S10000, .i32⟩
  | .hbm, ⟨89, _⟩ => ⟨S10000, .i32⟩
  | .hbm, ⟨90, _⟩ => ⟨S10000, .i32⟩
  | .hbm, ⟨91, _⟩ => ⟨S10000x1, .i32⟩
  | .hbm, ⟨92, _⟩ => ⟨S10000x128, .f32⟩
  | .hbm, ⟨93, _⟩ => ⟨S10000x64, .f32⟩
  | .hbm, ⟨94, _⟩ => ⟨S1x64, .f32⟩
  | .hbm, ⟨95, _⟩ => ⟨S10000x64, .f32⟩
  | .hbm, ⟨96, _⟩ => ⟨S10000x64, .f32⟩
  | .hbm, ⟨97, _⟩ => ⟨S10000x64, .f32⟩
  | .hbm, ⟨98, _⟩ => ⟨S10000x64, .f32⟩
  | .hbm, ⟨99, _⟩ => ⟨S1x64, .f32⟩
  | .hbm, ⟨100, _⟩ => ⟨S10000x64, .f32⟩
  | .hbm, ⟨101, _⟩ => ⟨S10000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call0_cst : Ref sig .tc := ⟨.hbm, 57, rfl⟩
abbrev main_call0_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S10000x1_S10000x128_1_0_n_n_0_1_1128_wf : GatherDims.WF S50000x128 S10000x1 S10000x128 [1] [0] [] [0] [] 1 ![1, 128]
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S10000x1_S10000x128_1_0_n_n_0_1_1128 : GatherDims S50000x128 S10000x1 S10000x128 where
  offsetDims := [1]
  collapsedSliceDims := [0]
  operandBatchingDims := []
  startIndicesBatchingDims := []
  startIndexMap := [0]
  indexVectorDim := 1
  sliceSizes := ![1, 128]
  wf := gather_S50000x128_S10000x1_S10000x128_1_0_n_n_0_1_1128_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.HostStretches.lean ====
/-
  The host stretches between the kernel regions, read as functions of the buffers they find.

  Three chains of host operations carry all the integer-indexed traffic, and both programs apply the very same
  operations, so each is named once and never opened:
  * `normCol idx`       : the degree-norm column max (count of idx, 1) ^ (-1/2), the count a scatter-add of ones;
  * `aggregate src dst x`: the rows of x gathered at the (wrapped) source indices and scatter-added at the destinations;
  * `userRows users h`   : the rows of h gathered at the (wrapped) user indices.
-/
import proofs.«122954_j73830487818453_1_alg».proof.Proof.KernelIdealFrame
import Idealize.ShloMosaic.Lib.StableHlo.Run

noncomputable section

namespace Cert.KernelIdeal.Val

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]

/-- max (number of edges with this end at the node, 1) ^ (-1/2), as a column. -/
def normCol (idx : (⟨S1600000, .i32⟩ : BufTy).Contents (Elt F)) : (⟨S50000x1, .f32⟩ : BufTy).Contents (Elt F) :=
  Host.powf (broadcastInDim S50000x1 ![0] bcast_S50000_S50000x1_0
      (maximumf (Host.scatterAdd scatter_S50000_S1600000x1_S1600000_n_0_0_1
          (broadcastInDim S50000 ![] bcast_S_S50000 (constant S_ .f32 0x00000000#32))
          (broadcastInDim S1600000x1 ![0] bcast_S1600000_S1600000x1_0 idx)
          (broadcastInDim S1600000 ![] bcast_S_S1600000 (constant S_ .f32 0x3F800000#32)))
        (broadcastInDim S50000 ![] bcast_S_S50000 (constant S_ .f32 0x3F800000#32))))
    (broadcastInDim S50000x1 ![] bcast_S_S50000x1 (constant S_ .f32 0xBF000000#32))

/-- Messages x[src[e]] summed into row dst[e], over all edges e. -/
def aggregate (src dst : (⟨S1600000, .i32⟩ : BufTy).Contents (Elt F)) (x : (⟨S50000x128, .f32⟩ : BufTy).Contents (Elt F)) :
    (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (Host.gather gather_S50000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-- The rows h[users[u]]. -/
def userRows (users : (⟨S10000, .i32⟩ : BufTy).Contents (Elt F)) (h : (⟨S50000x128, .f32⟩ : BufTy).Contents (Elt F)) :
    (⟨S10000x128, .f32⟩ : BufTy).Contents (Elt F) :=
  Host.gather gather_S50000x128_S10000x1_S10000x128_1_0_n_n_0_1_1128 h
    (broadcastInDim S10000x1 ![0] bcast_S10000_S10000x1_0
      (select (cmpi .slt users (broadcastInDim S10000 ![] bcast_S_S10000 (constantI S_ 32 0#32)))
        (addi users (broadcastInDim S10000 ![] bcast_S_S10000 (constantI S_ 32 50000#32))) users))

variable (W : Valuation τ sig (Elt F))

/-- The first stretch leaves the source-side norm column, a function of the source indices it finds. -/
theorem after0_v11 : StableHlo.after hostOps0 W (Proc.devRef .tc main_v11) = normCol (F := F) (W (Proc.devRef .tc main_arg9)) := by
  after_results; rfl

/-- and the destination-side one. -/
theorem after0_v16 : StableHlo.after hostOps0 W (Proc.devRef .tc main_v16) = normCol (F := F) (W (Proc.devRef .tc main_arg10)) := by
  after_results; rfl

/-- The stretch after the first region aggregates that region's output over the edges. -/
theorem after1_v27 : StableHlo.after hostOps1 W (Proc.devRef .tc main_v27)
    = aggregate (F := F) (W (Proc.devRef .tc main_arg9)) (W (Proc.devRef .tc main_arg10)) (W (Proc.devRef .tc main_v17)) := by
  after_results; rfl

/-- The stretch after the third region aggregates that region's output over the edges. -/
theorem after3_v39 : StableHlo.after hostOps3 W (Proc.devRef .tc main_v39)
    = aggregate (F := F) (W (Proc.devRef .tc main_arg9)) (W (Proc.devRef .tc main_arg10)) (W (Proc.devRef .tc main_v29)) := by
  after_results; rfl

/-- The last stretch gathers the user rows of the fourth region's output. -/
theorem after4_v47 : StableHlo.after hostOps4 W (Proc.devRef .tc main_v47)
    = userRows (F := F) (W (Proc.devRef .tc main_arg11)) (W (Proc.devRef .tc main_v40)) := by
  after_results; rfl

end Cert.KernelIdeal.Val

end
-- ==== Proof.Boundaries.lean ====
/-
  What the buffers hold at each segment boundary of the kernel program, traced back to the launch memory.

  A buffer that no host operation of a stretch writes is unchanged by the stretch; a buffer that is not one of a
  region's window arrays is unchanged by the region, and an input window's array is too. Following each buffer a
  region or a stretch reads back along these two facts gives it as a function of the argument arrays:
  the arguments themselves, and the two degree-norm columns the first stretch computes.
-/
import proofs.«122954_j73830487818453_1_alg».proof.Proof.HostStretches

noncomputable section

namespace Cert.KernelIdeal.Val

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]
variable (m : (ℓ : Loc nD τ sig) → Buf (Elt F) ℓ) (ρ : Dev nD → PrngReg)

/-- A stretch leaves alone every buffer none of its operations writes: the goal
    `StableHlo.after ops W b = W b`, the writes of `ops` listed and each compared with `b`. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

set_option quotPrecheck false in
local notation "⟪" b "⟫" => Proc.devRef .tc b

/-! ## A stretch leaves alone what it does not write -/

section Keeps
variable (W : Valuation τ sig (Elt F))
theorem keep0_arg0 : StableHlo.after hostOps0 W ⟪main_arg0⟫ = W ⟪main_arg0⟫ := by host_keeps hostOps0
theorem keep0_arg1 : StableHlo.after hostOps0 W ⟪main_arg1⟫ = W ⟪main_arg1⟫ := by host_keeps hostOps0
theorem keep0_arg2 : StableHlo.after hostOps0 W ⟪main_arg2⟫ = W ⟪main_arg2⟫ := by host_keeps hostOps0
theorem keep0_arg3 : StableHlo.after hostOps0 W ⟪main_arg3⟫ = W ⟪main_arg3⟫ := by host_keeps hostOps0
theorem keep0_arg4 : StableHlo.after hostOps0 W ⟪main_arg4⟫ = W ⟪main_arg4⟫ := by host_keeps hostOps0
theorem keep0_arg5 : StableHlo.after hostOps0 W ⟪main_arg5⟫ = W ⟪main_arg5⟫ := by host_keeps hostOps0
theorem keep0_arg6 : StableHlo.after hostOps0 W ⟪main_arg6⟫ = W ⟪main_arg6⟫ := by host_keeps hostOps0
theorem keep0_arg7 : StableHlo.after hostOps0 W ⟪main_arg7⟫ = W ⟪main_arg7⟫ := by host_keeps hostOps0
theorem keep0_arg8 : StableHlo.after hostOps0 W ⟪main_arg8⟫ = W ⟪main_arg8⟫ := by host_keeps hostOps0
theorem keep0_arg9 : StableHlo.after hostOps0 W ⟪main_arg9⟫ = W ⟪main_arg9⟫ := by host_keeps hostOps0
theorem keep0_arg10 : StableHlo.after hostOps0 W ⟪main_arg10⟫ = W ⟪main_arg10⟫ := by host_keeps hostOps0
theorem keep0_arg11 : StableHlo.after hostOps0 W ⟪main_arg11⟫ = W ⟪main_arg11⟫ := by host_keeps hostOps0
theorem keep1_arg2 : StableHlo.after hostOps1 W ⟪main_arg2⟫ = W ⟪main_arg2⟫ := by host_keeps hostOps1
theorem keep1_arg3 : StableHlo.after hostOps1 W ⟪main_arg3⟫ = W ⟪main_arg3⟫ := by host_keeps hostOps1
theorem keep1_arg4 : StableHlo.after hostOps1 W ⟪main_arg4⟫ = W ⟪main_arg4⟫ := by host_keeps hostOps1
theorem keep1_arg5 : StableHlo.after hostOps1 W ⟪main_arg5⟫ = W ⟪main_arg5⟫ := by host_keeps hostOps1
theorem keep1_arg6 : StableHlo.after hostOps1 W ⟪main_arg6⟫ = W ⟪main_arg6⟫ := by host_keeps hostOps1
theorem keep1_arg7 : StableHlo.after hostOps1 W ⟪main_arg7⟫ = W ⟪main_arg7⟫ := by host_keeps hostOps1
theorem keep1_arg8 : StableHlo.after hostOps1 W ⟪main_arg8⟫ = W ⟪main_arg8⟫ := by host_keeps hostOps1
theorem keep1_arg9 : StableHlo.after hostOps1 W ⟪main_arg9⟫ = W ⟪main_arg9⟫ := by host_keeps hostOps1
theorem keep1_arg10 : StableHlo.after hostOps1 W ⟪main_arg10⟫ = W ⟪main_arg10⟫ := by host_keeps hostOps1
theorem keep1_arg11 : StableHlo.after hostOps1 W ⟪main_arg11⟫ = W ⟪main_arg11⟫ := by host_keeps hostOps1
theorem keep1_v11 : StableHlo.after hostOps1 W ⟪main_v11⟫ = W ⟪main_v11⟫ := by host_keeps hostOps1
theorem keep1_v16 : StableHlo.after hostOps1 W ⟪main_v16⟫ = W ⟪main_v16⟫ := by host_keeps hostOps1
theorem keep3_arg4 : StableHlo.after hostOps3 W ⟪main_arg4⟫ = W ⟪main_arg4⟫ := by host_keeps hostOps3
theorem keep3_arg5 : StableHlo.after hostOps3 W ⟪main_arg5⟫ = W ⟪main_arg5⟫ := by host_keeps hostOps3
theorem keep3_arg6 : StableHlo.after hostOps3 W ⟪main_arg6⟫ = W ⟪main_arg6⟫ := by host_keeps hostOps3
theorem keep3_arg7 : StableHlo.after hostOps3 W ⟪main_arg7⟫ = W ⟪main_arg7⟫ := by host_keeps hostOps3
theorem keep3_arg8 : StableHlo.after hostOps3 W ⟪main_arg8⟫ = W ⟪main_arg8⟫ := by host_keeps hostOps3
theorem keep3_arg11 : StableHlo.after hostOps3 W ⟪main_arg11⟫ = W ⟪main_arg11⟫ := by host_keeps hostOps3
theorem keep3_v16 : StableHlo.after hostOps3 W ⟪main_v16⟫ = W ⟪main_v16⟫ := by host_keeps hostOps3
theorem keep4_arg5 : StableHlo.after hostOps4 W ⟪main_arg5⟫ = W ⟪main_arg5⟫ := by host_keeps hostOps4
theorem keep4_arg6 : StableHlo.after hostOps4 W ⟪main_arg6⟫ = W ⟪main_arg6⟫ := by host_keeps hostOps4
theorem keep4_arg7 : StableHlo.after hostOps4 W ⟪main_arg7⟫ = W ⟪main_arg7⟫ := by host_keeps hostOps4
theorem keep4_arg8 : StableHlo.after hostOps4 W ⟪main_arg8⟫ = W ⟪main_arg8⟫ := by host_keeps hostOps4
theorem keep4_v40 : StableHlo.after hostOps4 W ⟪main_v40⟫ = W ⟪main_v40⟫ := by host_keeps hostOps4
end Keeps

/-! ## At the first region's entry: the arguments as launched, the two norm columns computed -/

theorem W1_arg0 (c : Dev nD) : W1 m ρ c ⟪main_arg0⟫ = m ((c : Thread nD τ).loc main_arg0) := (keep0_arg0 (W0 m ρ c)).trans rfl
theorem W1_arg1 (c : Dev nD) : W1 m ρ c ⟪main_arg1⟫ = m ((c : Thread nD τ).loc main_arg1) := (keep0_arg1 (W0 m ρ c)).trans rfl
theorem W1_arg2 (c : Dev nD) : W1 m ρ c ⟪main_arg2⟫ = m ((c : Thread nD τ).loc main_arg2) := (keep0_arg2 (W0 m ρ c)).trans rfl
theorem W1_arg3 (c : Dev nD) : W1 m ρ c ⟪main_arg3⟫ = m ((c : Thread nD τ).loc main_arg3) := (keep0_arg3 (W0 m ρ c)).trans rfl
theorem W1_arg4 (c : Dev nD) : W1 m ρ c ⟪main_arg4⟫ = m ((c : Thread nD τ).loc main_arg4) := (keep0_arg4 (W0 m ρ c)).trans rfl
theorem W1_arg5 (c : Dev nD) : W1 m ρ c ⟪main_arg5⟫ = m ((c : Thread nD τ).loc main_arg5) := (keep0_arg5 (W0 m ρ c)).trans rfl
theorem W1_arg6 (c : Dev nD) : W1 m ρ c ⟪main_arg6⟫ = m ((c : Thread nD τ).loc main_arg6) := (keep0_arg6 (W0 m ρ c)).trans rfl
theorem W1_arg7 (c : Dev nD) : W1 m ρ c ⟪main_arg7⟫ = m ((c : Thread nD τ).loc main_arg7) := (keep0_arg7 (W0 m ρ c)).trans rfl
theorem W1_arg8 (c : Dev nD) : W1 m ρ c ⟪main_arg8⟫ = m ((c : Thread nD τ).loc main_arg8) := (keep0_arg8 (W0 m ρ c)).trans rfl
theorem W1_arg9 (c : Dev nD) : W1 m ρ c ⟪main_arg9⟫ = m ((c : Thread nD τ).loc main_arg9) := (keep0_arg9 (W0 m ρ c)).trans rfl
theorem W1_arg10 (c : Dev nD) : W1 m ρ c ⟪main_arg10⟫ = m ((c : Thread nD τ).loc main_arg10) := (keep0_arg10 (W0 m ρ c)).trans rfl
theorem W1_arg11 (c : Dev nD) : W1 m ρ c ⟪main_arg11⟫ = m ((c : Thread nD τ).loc main_arg11) := (keep0_arg11 (W0 m ρ c)).trans rfl
theorem W1_v11 (c : Dev nD) : W1 m ρ c ⟪main_v11⟫ = normCol (F := F) (m ((c : Thread nD τ).loc main_arg9)) := (after0_v11 (W0 m ρ c)).trans rfl
theorem W1_v16 (c : Dev nD) : W1 m ρ c ⟪main_v16⟫ = normCol (F := F) (m ((c : Thread nD τ).loc main_arg10)) := (after0_v16 (W0 m ρ c)).trans rfl

/-! ## At the first region's exit -/

theorem W2_arg2 (c : Dev nD) : W2 m ρ c ⟪main_arg2⟫ = m ((c : Thread nD τ).loc main_arg2) := (W2_of_ne m ρ c main_arg2 (by decide)).trans (W1_arg2 m ρ c)
theorem W2_arg3 (c : Dev nD) : W2 m ρ c ⟪main_arg3⟫ = m ((c : Thread nD τ).loc main_arg3) := (W2_of_ne m ρ c main_arg3 (by decide)).trans (W1_arg3 m ρ c)
theorem W2_arg4 (c : Dev nD) : W2 m ρ c ⟪main_arg4⟫ = m ((c : Thread nD τ).loc main_arg4) := (W2_of_ne m ρ c main_arg4 (by decide)).trans (W1_arg4 m ρ c)
theorem W2_arg5 (c : Dev nD) : W2 m ρ c ⟪main_arg5⟫ = m ((c : Thread nD τ).loc main_arg5) := (W2_of_ne m ρ c main_arg5 (by decide)).trans (W1_arg5 m ρ c)
theorem W2_arg6 (c : Dev nD) : W2 m ρ c ⟪main_arg6⟫ = m ((c : Thread nD τ).loc main_arg6) := (W2_of_ne m ρ c main_arg6 (by decide)).trans (W1_arg6 m ρ c)
theorem W2_arg7 (c : Dev nD) : W2 m ρ c ⟪main_arg7⟫ = m ((c : Thread nD τ).loc main_arg7) := (W2_of_ne m ρ c main_arg7 (by decide)).trans (W1_arg7 m ρ c)
theorem W2_arg8 (c : Dev nD) : W2 m ρ c ⟪main_arg8⟫ = m ((c : Thread nD τ).loc main_arg8) := (W2_of_ne m ρ c main_arg8 (by decide)).trans (W1_arg8 m ρ c)
theorem W2_arg9 (c : Dev nD) : W2 m ρ c ⟪main_arg9⟫ = m ((c : Thread nD τ).loc main_arg9) := (W2_of_ne m ρ c main_arg9 (by decide)).trans (W1_arg9 m ρ c)
theorem W2_arg10 (c : Dev nD) : W2 m ρ c ⟪main_arg10⟫ = m ((c : Thread nD τ).loc main_arg10) := (W2_of_ne m ρ c main_arg10 (by decide)).trans (W1_arg10 m ρ c)
theorem W2_arg11 (c : Dev nD) : W2 m ρ c ⟪main_arg11⟫ = m ((c : Thread nD τ).loc main_arg11) := (W2_of_ne m ρ c main_arg11 (by decide)).trans (W1_arg11 m ρ c)
theorem W2_v11 (c : Dev nD) : W2 m ρ c ⟪main_v11⟫ = normCol (F := F) (m ((c : Thread nD τ).loc main_arg9)) := ((W2_arr m ρ c 2).trans (((dat0 (V1 m ρ) c).arrAt_in 2 rfl _).trans (A_eq0 (V1 m ρ) c 2))).trans (W1_v11 m ρ c)
theorem W2_v16 (c : Dev nD) : W2 m ρ c ⟪main_v16⟫ = normCol (F := F) (m ((c : Thread nD τ).loc main_arg10)) := (W2_of_ne m ρ c main_v16 (by decide)).trans (W1_v16 m ρ c)

/-! ## At the second region's entry -/

theorem W3_arg2 (c : Dev nD) : W3 m ρ c ⟪main_arg2⟫ = m ((c : Thread nD τ).loc main_arg2) := (keep1_arg2 (W2 m ρ c)).trans (W2_arg2 m ρ c)
theorem W3_arg3 (c : Dev nD) : W3 m ρ c ⟪main_arg3⟫ = m ((c : Thread nD τ).loc main_arg3) := (keep1_arg3 (W2 m ρ c)).trans (W2_arg3 m ρ c)
theorem W3_arg4 (c : Dev nD) : W3 m ρ c ⟪main_arg4⟫ = m ((c : Thread nD τ).loc main_arg4) := (keep1_arg4 (W2 m ρ c)).trans (W2_arg4 m ρ c)
theorem W3_arg5 (c : Dev nD) : W3 m ρ c ⟪main_arg5⟫ = m ((c : Thread nD τ).loc main_arg5) := (keep1_arg5 (W2 m ρ c)).trans (W2_arg5 m ρ c)
theorem W3_arg6 (c : Dev nD) : W3 m ρ c ⟪main_arg6⟫ = m ((c : Thread nD τ).loc main_arg6) := (keep1_arg6 (W2 m ρ c)).trans (W2_arg6 m ρ c)
theorem W3_arg7 (c : Dev nD) : W3 m ρ c ⟪main_arg7⟫ = m ((c : Thread nD τ).loc main_arg7) := (keep1_arg7 (W2 m ρ c)).trans (W2_arg7 m ρ c)
theorem W3_arg8 (c : Dev nD) : W3 m ρ c ⟪main_arg8⟫ = m ((c : Thread nD τ).loc main_arg8) := (keep1_arg8 (W2 m ρ c)).trans (W2_arg8 m ρ c)
theorem W3_arg9 (c : Dev nD) : W3 m ρ c ⟪main_arg9⟫ = m ((c : Thread nD τ).loc main_arg9) := (keep1_arg9 (W2 m ρ c)).trans (W2_arg9 m ρ c)
theorem W3_arg10 (c : Dev nD) : W3 m ρ c ⟪main_arg10⟫ = m ((c : Thread nD τ).loc main_arg10) := (keep1_arg10 (W2 m ρ c)).trans (W2_arg10 m ρ c)
theorem W3_arg11 (c : Dev nD) : W3 m ρ c ⟪main_arg11⟫ = m ((c : Thread nD τ).loc main_arg11) := (keep1_arg11 (W2 m ρ c)).trans (W2_arg11 m ρ c)
theorem W3_v11 (c : Dev nD) : W3 m ρ c ⟪main_v11⟫ = normCol (F := F) (m ((c : Thread nD τ).loc main_arg9)) := (keep1_v11 (W2 m ρ c)).trans (W2_v11 m ρ c)
theorem W3_v16 (c : Dev nD) : W3 m ρ c ⟪main_v16⟫ = normCol (F := F) (m ((c : Thread nD τ).loc main_arg10)) := (keep1_v16 (W2 m ρ c)).trans (W2_v16 m ρ c)

/-! ## At the second region's exit (the third region's entry) -/

theorem W4_arg3 (c : Dev nD) : W4 m ρ c ⟪main_arg3⟫ = m ((c : Thread nD τ).loc main_arg3) := (W4_of_ne m ρ c main_arg3 (by decide)).trans (W3_arg3 m ρ c)
theorem W4_arg4 (c : Dev nD) : W4 m ρ c ⟪main_arg4⟫ = m ((c : Thread nD τ).loc main_arg4) := (W4_of_ne m ρ c main_arg4 (by decide)).trans (W3_arg4 m ρ c)
theorem W4_arg5 (c : Dev nD) : W4 m ρ c ⟪main_arg5⟫ = m ((c : Thread nD τ).loc main_arg5) := (W4_of_ne m ρ c main_arg5 (by decide)).trans (W3_arg5 m ρ c)
theorem W4_arg6 (c : Dev nD) : W4 m ρ c ⟪main_arg6⟫ = m ((c : Thread nD τ).loc main_arg6) := (W4_of_ne m ρ c main_arg6 (by decide)).trans (W3_arg6 m ρ c)
theorem W4_arg7 (c : Dev nD) : W4 m ρ c ⟪main_arg7⟫ = m ((c : Thread nD τ).loc main_arg7) := (W4_of_ne m ρ c main_arg7 (by decide)).trans (W3_arg7 m ρ c)
theorem W4_arg8 (c : Dev nD) : W4 m ρ c ⟪main_arg8⟫ = m ((c : Thread nD τ).loc main_arg8) := (W4_of_ne m ρ c main_arg8 (by decide)).trans (W3_arg8 m ρ c)
theorem W4_arg9 (c : Dev nD) : W4 m ρ c ⟪main_arg9⟫ = m ((c : Thread nD τ).loc main_arg9) := (W4_of_ne m ρ c main_arg9 (by decide)).trans (W3_arg9 m ρ c)
theorem W4_arg10 (c : Dev nD) : W4 m ρ c ⟪main_arg10⟫ = m ((c : Thread nD τ).loc main_arg10) := (W4_of_ne m ρ c main_arg10 (by decide)).trans (W3_arg10 m ρ c)
theorem W4_arg11 (c : Dev nD) : W4 m ρ c ⟪main_arg11⟫ = m ((c : Thread nD τ).loc main_arg11) := (W4_of_ne m ρ c main_arg11 (by decide)).trans (W3_arg11 m ρ c)
theorem W4_v11 (c : Dev nD) : W4 m ρ c ⟪main_v11⟫ = normCol (F := F) (m ((c : Thread nD τ).loc main_arg9)) := (W4_of_ne m ρ c main_v11 (by decide)).trans (W3_v11 m ρ c)
theorem W4_v16 (c : Dev nD) : W4 m ρ c ⟪main_v16⟫ = normCol (F := F) (m ((c : Thread nD τ).loc main_arg10)) := ((W4_arr m ρ c 1).trans (((dat1 (V3 m ρ) c).arrAt_in 1 rfl _).trans (A_eq1 (V3 m ρ) c 1))).trans (W3_v16 m ρ c)

/-! ## At the third region's exit -/

theorem W5_arg4 (c : Dev nD) : W5 m ρ c ⟪main_arg4⟫ = m ((c : Thread nD τ).loc main_arg4) := (W5_of_ne m ρ c main_arg4 (by decide)).trans (W4_arg4 m ρ c)
theorem W5_arg5 (c : Dev nD) : W5 m ρ c ⟪main_arg5⟫ = m ((c : Thread nD τ).loc main_arg5) := (W5_of_ne m ρ c main_arg5 (by decide)).trans (W4_arg5 m ρ c)
theorem W5_arg6 (c : Dev nD) : W5 m ρ c ⟪main_arg6⟫ = m ((c : Thread nD τ).loc main_arg6) := (W5_of_ne m ρ c main_arg6 (by decide)).trans (W4_arg6 m ρ c)
theorem W5_arg7 (c : Dev nD) : W5 m ρ c ⟪main_arg7⟫ = m ((c : Thread nD τ).loc main_arg7) := (W5_of_ne m ρ c main_arg7 (by decide)).trans (W4_arg7 m ρ c)
theorem W5_arg8 (c : Dev nD) : W5 m ρ c ⟪main_arg8⟫ = m ((c : Thread nD τ).loc main_arg8) := (W5_of_ne m ρ c main_arg8 (by decide)).trans (W4_arg8 m ρ c)
theorem W5_arg9 (c : Dev nD) : W5 m ρ c ⟪main_arg9⟫ = m ((c : Thread nD τ).loc main_arg9) := (W5_of_ne m ρ c main_arg9 (by decide)).trans (W4_arg9 m ρ c)
theorem W5_arg10 (c : Dev nD) : W5 m ρ c ⟪main_arg10⟫ = m ((c : Thread nD τ).loc main_arg10) := (W5_of_ne m ρ c main_arg10 (by decide)).trans (W4_arg10 m ρ c)
theorem W5_arg11 (c : Dev nD) : W5 m ρ c ⟪main_arg11⟫ = m ((c : Thread nD τ).loc main_arg11) := (W5_of_ne m ρ c main_arg11 (by decide)).trans (W4_arg11 m ρ c)
theorem W5_v16 (c : Dev nD) : W5 m ρ c ⟪main_v16⟫ = normCol (F := F) (m ((c : Thread nD τ).loc main_arg10)) := (W5_of_ne m ρ c main_v16 (by decide)).trans (W4_v16 m ρ c)

/-! ## At the fourth region's entry -/

theorem W6_arg4 (c : Dev nD) : W6 m ρ c ⟪main_arg4⟫ = m ((c : Thread nD τ).loc main_arg4) := (keep3_arg4 (W5 m ρ c)).trans (W5_arg4 m ρ c)
theorem W6_arg5 (c : Dev nD) : W6 m ρ c ⟪main_arg5⟫ = m ((c : Thread nD τ).loc main_arg5) := (keep3_arg5 (W5 m ρ c)).trans (W5_arg5 m ρ c)
theorem W6_arg6 (c : Dev nD) : W6 m ρ c ⟪main_arg6⟫ = m ((c : Thread nD τ).loc main_arg6) := (keep3_arg6 (W5 m ρ c)).trans (W5_arg6 m ρ c)
theorem W6_arg7 (c : Dev nD) : W6 m ρ c ⟪main_arg7⟫ = m ((c : Thread nD τ).loc main_arg7) := (keep3_arg7 (W5 m ρ c)).trans (W5_arg7 m ρ c)
theorem W6_arg8 (c : Dev nD) : W6 m ρ c ⟪main_arg8⟫ = m ((c : Thread nD τ).loc main_arg8) := (keep3_arg8 (W5 m ρ c)).trans (W5_arg8 m ρ c)
theorem W6_arg11 (c : Dev nD) : W6 m ρ c ⟪main_arg11⟫ = m ((c : Thread nD τ).loc main_arg11) := (keep3_arg11 (W5 m ρ c)).trans (W5_arg11 m ρ c)
theorem W6_v16 (c : Dev nD) : W6 m ρ c ⟪main_v16⟫ = normCol (F := F) (m ((c : Thread nD τ).loc main_arg10)) := (keep3_v16 (W5 m ρ c)).trans (W5_v16 m ρ c)

/-! ## At the fourth region's exit -/

theorem W7_arg5 (c : Dev nD) : W7 m ρ c ⟪main_arg5⟫ = m ((c : Thread nD τ).loc main_arg5) := (W7_of_ne m ρ c main_arg5 (by decide)).trans (W6_arg5 m ρ c)
theorem W7_arg6 (c : Dev nD) : W7 m ρ c ⟪main_arg6⟫ = m ((c : Thread nD τ).loc main_arg6) := (W7_of_ne m ρ c main_arg6 (by decide)).trans (W6_arg6 m ρ c)
theorem W7_arg7 (c : Dev nD) : W7 m ρ c ⟪main_arg7⟫ = m ((c : Thread nD τ).loc main_arg7) := (W7_of_ne m ρ c main_arg7 (by decide)).trans (W6_arg7 m ρ c)
theorem W7_arg8 (c : Dev nD) : W7 m ρ c ⟪main_arg8⟫ = m ((c : Thread nD τ).loc main_arg8) := (W7_of_ne m ρ c main_arg8 (by decide)).trans (W6_arg8 m ρ c)
theorem W7_arg11 (c : Dev nD) : W7 m ρ c ⟪main_arg11⟫ = m ((c : Thread nD τ).loc main_arg11) := (W7_of_ne m ρ c main_arg11 (by decide)).trans (W6_arg11 m ρ c)

/-! ## At the fifth region's entry -/

theorem W8_arg5 (c : Dev nD) : W8 m ρ c ⟪main_arg5⟫ = m ((c : Thread nD τ).loc main_arg5) := (keep4_arg5 (W7 m ρ c)).trans (W7_arg5 m ρ c)
theorem W8_arg6 (c : Dev nD) : W8 m ρ c ⟪main_arg6⟫ = m ((c : Thread nD τ).loc main_arg6) := (keep4_arg6 (W7 m ρ c)).trans (W7_arg6 m ρ c)
theorem W8_arg7 (c : Dev nD) : W8 m ρ c ⟪main_arg7⟫ = m ((c : Thread nD τ).loc main_arg7) := (keep4_arg7 (W7 m ρ c)).trans (W7_arg7 m ρ c)
theorem W8_arg8 (c : Dev nD) : W8 m ρ c ⟪main_arg8⟫ = m ((c : Thread nD τ).loc main_arg8) := (keep4_arg8 (W7 m ρ c)).trans (W7_arg8 m ρ c)

end Cert.KernelIdeal.Val

end
-- ==== Proof.Spec.lean ====
/-
  What the three kinds of kernel region compute, index by index, on the extended reals.

  * `scaledProduct x W s` : the matrix product x · W with row p multiplied by the column entry s[p, 0]
    (a graph-convolution layer's feature transform with the source-side degree norm).
  * `biasedRelu a s b`    : max (a[p, q] · s[p, 0] + b[q], 0)
    (the aggregated messages scaled by the destination-side degree norm, biased, rectified).
  * `head u A a B b`      : tanh (u · A + a) · B + b (the two-layer perceptron on the gathered rows).

  All three are generic in the extents, so the same function describes one block of rows and the whole array:
  a block of rows of the result depends on the same rows of the row-indexed operands and on all of the others.
-/
import Idealize.ShloMosaic.PureOps.Ideal
import Idealize.ShloMosaic.Lib.ValueIdx

noncomputable section

open scoped BigOperators

namespace Cert.Spec

open Idealize.ShloMosaic Idealize.ShloMosaic.ValueIdx

variable {N D E H O : Nat}

/-- Entry (p, q) of (x · W) scaled by s[p, 0]. -/
def scaledProductAt (x : FVec Ideal ⟨2, ![N, D]⟩ .f32) (W : FVec Ideal ⟨2, ![D, E]⟩ .f32) (s : FVec Ideal ⟨2, ![N, 1]⟩ .f32)
    (p : Fin N) (q : Fin E) : Ideal .f32 :=
  (∑ k : Fin D, x (ix2 p k) * W (ix2 k q)) * s (ix2 p (0 : Fin 1))

/-- (x · W) with every row scaled by its entry of the column s. -/
def scaledProduct (x : FVec Ideal ⟨2, ![N, D]⟩ .f32) (W : FVec Ideal ⟨2, ![D, E]⟩ .f32) (s : FVec Ideal ⟨2, ![N, 1]⟩ .f32) :
    FVec Ideal ⟨2, ![N, E]⟩ .f32 :=
  fun i => scaledProductAt x W s (i 0) (i 1)

theorem scaledProduct_apply (x : FVec Ideal ⟨2, ![N, D]⟩ .f32) (W : FVec Ideal ⟨2, ![D, E]⟩ .f32) (s : FVec Ideal ⟨2, ![N, 1]⟩ .f32)
    (p : Fin N) (q : Fin E) : scaledProduct x W s (ix2 p q) = scaledProductAt x W s p q := rfl

/-- Entry (p, q) of max (a · s + b, 0), the zero kept as its f32 word. -/
def biasedReluAt (a : FVec Ideal ⟨2, ![N, E]⟩ .f32) (s : FVec Ideal ⟨2, ![N, 1]⟩ .f32) (b : FVec Ideal ⟨1, ![E]⟩ .f32)
    (p : Fin N) (q : Fin E) : Ideal .f32 :=
  max (a (ix2 p q) * s (ix2 p (0 : Fin 1)) + b (ix1 q)) (Ideal.ofBits .f32 0x00000000#32)

/-- max (a scaled row-wise by the column s, plus the bias row b, 0). -/
def biasedRelu (a : FVec Ideal ⟨2, ![N, E]⟩ .f32) (s : FVec Ideal ⟨2, ![N, 1]⟩ .f32) (b : FVec Ideal ⟨1, ![E]⟩ .f32) :
    FVec Ideal ⟨2, ![N, E]⟩ .f32 :=
  fun i => biasedReluAt a s b (i 0) (i 1)

theorem biasedRelu_apply (a : FVec Ideal ⟨2, ![N, E]⟩ .f32) (s : FVec Ideal ⟨2, ![N, 1]⟩ .f32) (b : FVec Ideal ⟨1, ![E]⟩ .f32)
    (p : Fin N) (q : Fin E) : biasedRelu a s b (ix2 p q) = biasedReluAt a s b p q := rfl

/-- Entry (p, q) of tanh (u · A + a) · B + b. -/
def headAt (u : FVec Ideal ⟨2, ![N, D]⟩ .f32) (A : FVec Ideal ⟨2, ![D, H]⟩ .f32) (a : FVec Ideal ⟨1, ![H]⟩ .f32)
    (B : FVec Ideal ⟨2, ![H, O]⟩ .f32) (b : FVec Ideal ⟨1, ![O]⟩ .f32) (p : Fin N) (q : Fin O) : Ideal .f32 :=
  (∑ k : Fin H, Ideal.tanh ((∑ j : Fin D, u (ix2 p j) * A (ix2 j k)) + a (ix1 k)) * B (ix2 k q)) + b (ix1 q)

/-- tanh (u · A + a) · B + b. -/
def head (u : FVec Ideal ⟨2, ![N, D]⟩ .f32) (A : FVec Ideal ⟨2, ![D, H]⟩ .f32) (a : FVec Ideal ⟨1, ![H]⟩ .f32)
    (B : FVec Ideal ⟨2, ![H, O]⟩ .f32) (b : FVec Ideal ⟨1, ![O]⟩ .f32) : FVec Ideal ⟨2, ![N, O]⟩ .f32 :=
  fun i => headAt u A a B b (i 0) (i 1)

theorem head_apply (u : FVec Ideal ⟨2, ![N, D]⟩ .f32) (A : FVec Ideal ⟨2, ![D, H]⟩ .f32) (a : FVec Ideal ⟨1, ![H]⟩ .f32)
    (B : FVec Ideal ⟨2, ![H, O]⟩ .f32) (b : FVec Ideal ⟨1, ![O]⟩ .f32) (p : Fin N) (q : Fin O) :
    head u A a B b (ix2 p q) = headAt u A a B b p q := rfl

end Cert.Spec

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.RegionTransform1.lean ====
/-
  The first layer's feature transform (the first kernel region), read as a whole array: after its ten row blocks are
  written back, the output array holds (features · W0) with row p scaled by the source-side norm cs[p, 0].

  The region walks ten points. Point t works on rows 5000·t … 5000·t + 4999: it reads that block of rows of the features
  and of the norm column, and the whole weight matrix, and writes the same block of rows of the output. Entry (p, q) of
  what it writes is (∑ k, x[p, k] · W[k, q]) · s[p, 0] over the block's own rows, so a block of the output is the same
  rows of the scaled product of the whole arrays; the ten blocks tile the 50000 rows.
-/
import proofs.«122954_j73830487818453_1_alg».proof.Proof.KernelIdealFrame
import proofs.«122954_j73830487818453_1_alg».proof.Proof.Spec
import proofs.«122954_j73830487818453_1_alg».proof.Proof.LibPlainDot
import proofs.«122954_j73830487818453_1_alg».proof.Proof.LibColumn

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

namespace Transform1

/-- The product's dimension numbers are those of a plain 5000×128 by 128×128 product. -/
theorem dims_plain : dot_S5000x128_S128x128_S5000x128_1_0_0_1_n_n = DotDims.plain 5000 128 128 := rfl

/-- One block's arithmetic at (p, q): the product of the block of rows with the weights, summed over the 128 shared
    coordinates, times the block's column entry in row p. Narrowing an operand's format changes nothing on the extended
    reals, the reshape of the column to its own shape is the identity, and the column spread along the rows reads its
    entry (p, 0). -/
theorem payload_apply (v0 : Vec Ideal S5000x128 .f32) (v2 : Vec Ideal S128x128 .f32) (v5 : Vec Ideal S5000x1 .f32)
    (p : Fin 5000) (q : Fin 128) :
    k0_pay1 (F := Ideal) v0 v2 v5 (ix2 p q) = Cert.Spec.scaledProductAt (N := 5000) (D := 128) (E := 128) v0 v2 v5 p q := by
  unfold k0_pay1 Cert.Spec.scaledProductAt
  rw [mulf_apply, dims_plain, shapeCast_self]
  refine congrArg₂ (· * ·) ?_ ?_
  · exact Cert.PlainDot.matmul_zero_apply (M := 5000) (K := 128) (N := 128) none
      (truncf .bf16 v0 bitsLt_bf16_f32) (truncf .bf16 v2 bitsLt_bf16_f32) p q
  · exact Idealize.ShloMosaic.Column.broadcastTo_a1_ab_apply (a := 5000) (b := 128) (by decide) v5 broadcasts_S5000x1_S5000x128 p q

theorem origin : (![0, 0] : Fin 2 → Nat) = fun _ => 0 := funext fun a => by fin_cases a <;> rfl

/-- Where each window's block sits at point t: the features, the norm column and the output move down the rows with
    the point (block t along axis 0, block 0 along axis 1); the weights stay at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the features' block at point t is row 5000·t + p of the features. -/
theorem rows_apply (c : Dev nD) (t : Fin cfg0.N) (p : Fin 5000) (k : Fin 128) (r : Fin 50000)
    (hr : r.val = t.val * 5000 + p.val) :
    (iblk0 V c 0 t : Vec Ideal S5000x128 .f32) (ix2 p k) = (V c main_arg0 : Vec Ideal S50000x128 .f32) (ix2 r k) := by
  obtain ⟨e0, e1, -⟩ := block_index t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weights' block is the whole weight matrix at every point. -/
theorem weights_apply (c : Dev nD) (t : Fin cfg0.N) (k : Fin 128) (q : Fin 128) :
    (iblk0 V c 1 t : Vec Ideal S128x128 .f32) (ix2 k q) = (V c main_arg1 : Vec Ideal S128x128 .f32) (ix2 k q) := by
  obtain ⟨-, -, e0, e1, -⟩ := block_index t
  show V c main_arg1 (((cfg0.win 1).blk t).view.emb (ix2 k q)) = V c main_arg1 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry p of the norm column's block at point t is entry 5000·t + p of the column. -/
theorem scale_apply (c : Dev nD) (t : Fin cfg0.N) (p : Fin 5000) (r : Fin 50000)
    (hr : r.val = t.val * 5000 + p.val) :
    (iblk0 V c 2 t : Vec Ideal S5000x1 .f32) (ix2 p (0 : Fin 1)) = (V c main_v11 : Vec Ideal S50000x1 .f32) (ix2 r (0 : Fin 1)) := by
  obtain ⟨-, -, -, -, e0, e1, -⟩ := block_index t
  show V c main_v11 (((cfg0.win 2).blk t).view.emb (ix2 p (0 : Fin 1))) = V c main_v11 (ix2 r (0 : Fin 1))
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- Entry (p, q) of what point t computes is entry (5000·t + p, q) of the scaled product of the whole arrays: the sum
    runs over the same 128 coordinates, its row of the features and its column entry are those of row 5000·t + p. -/
theorem block_entry (c : Dev nD) (t : Fin cfg0.N) (j : S5000x128.Idx) :
    k0_pay1 (F := Ideal) (iblk0 V c 0 t) (iblk0 V c 1 t) (iblk0 V c 2 t) j
      = Cert.Spec.scaledProduct (N := 50000) (D := 128) (E := 128) (V c main_arg0) (V c main_arg1) (V c main_v11)
          (((cfg0.win 3).blk t).view.emb j) := by
  obtain ⟨p, q, rfl⟩ : ∃ (p : Fin 5000) (q : Fin 128), j = ix2 p q := ⟨j 0, j 1, eq_ix2 j⟩
  have hN : cfg0.N = 10 := N_0
  have ht : t.val < 10 := hN ▸ t.isLt
  obtain ⟨r, hr⟩ : ∃ r : Fin 50000, r.val = t.val * 5000 + p.val := ⟨⟨t.val * 5000 + p.val, by omega⟩, rfl⟩
  obtain ⟨-, -, -, -, -, -, e0, e1⟩ := block_index t
  have he : ((cfg0.win 3).blk t).view.emb (ix2 p q) = (ix2 r q : S50000x128.Idx) := by
    funext a; apply Fin.ext
    match a with
    | ⟨0, _⟩ => show win0_3.index t (0 : Fin 2) * 5000 + 1 * p.val = r.val; omega
    | ⟨1, _⟩ => show win0_3.index t (1 : Fin 2) * 128 + 1 * q.val = q.val; omega
  rw [he, Cert.Spec.scaledProduct_apply]
  refine (payload_apply _ _ _ p q).trans ?_
  unfold Cert.Spec.scaledProductAt
  refine congrArg₂ (· * ·) (Finset.sum_congr rfl fun k _ => congrArg₂ (· * ·) ?_ ?_) ?_
  · exact rows_apply V c t p k r hr
  · exact weights_apply V c t k q
  · exact scale_apply V c t p r hr

/-- What point t writes back is block t of the scaled product of the whole arrays. -/
theorem flushed_eq (c : Dev nD) (t : Fin cfg0.N) :
    (dat0 (F := Ideal) V c).flushed 3 t = ((cfg0.win 3).blk t).view.read (Elt Ideal)
      (Cert.Spec.scaledProduct (N := 50000) (D := 128) (E := 128) (V c main_arg0) (V c main_arg1) (V c main_v11)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin,
    View.ld_unit_zero (S := S5000x1) origin]
  funext j
  exact block_entry V c t j

/-- An index of the output lies in point t's block iff each coordinate lies in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- The ten blocks cover the output: row r lies in the block of point r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1⟩ := block_index t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

end Transform1

/-- The array the first region leaves: the scaled product of the arrays it finds at its entry. -/
theorem final0 (c : Dev nD) : (dat0 (F := Ideal) V c).arrAt 3 cfg0.N
    = Cert.Spec.scaledProduct (N := 50000) (D := 128) (E := 128) (V c main_arg0) (V c main_arg1) (V c main_v11) :=
  (dat0 V c).arrAt_eq_of_cover 3 _ (fun t _ => Transform1.flushed_eq V c t) Transform1.cover

end Cert.KernelIdeal.Val

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.RegionAggregate1.lean ====
/-
  The first layer's output stage (the second kernel region), read as a whole array: max (agg · cd + b0, 0) of the
  aggregated messages, the destination-side norm column and the bias.
-/
import proofs.«122954_j73830487818453_1_alg».proof.Proof.KernelIdealFrame
import proofs.«122954_j73830487818453_1_alg».proof.Proof.Spec
import proofs.«122954_j73830487818453_1_alg».proof.Proof.LibRowBias
import proofs.«122954_j73830487818453_1_alg».proof.Proof.LibColumn

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

namespace Aggregate1

/-- Entry (p, q) of the stored block: max (v0[p, q] · v2[p, 0] + v6[q], 0). The two layout casts are identities, the
    column is broadcast along its unit axis, the bias vector is laid out as one row and broadcast down the rows. -/
theorem pay_apply (v0 : Vec Ideal S5000x128 .f32) (v2 : Vec Ideal S5000x1 .f32) (v6 : Vec Ideal S128 .f32)
    (p : Fin 5000) (q : Fin 128) :
    k1_pay1 (F := Ideal) v0 v2 v6 (ix2 p q) = Cert.Spec.biasedReluAt (N := 5000) (E := 128) v0 v2 v6 p q := by
  unfold k1_pay1
  rw [maximumf_apply, addf_apply, mulf_apply, broadcast_apply, shapeCast_self, shapeCast_self,
    Column.broadcastTo_a1_ab_apply (by decide), Cert.RowBias.rows_apply, Cert.RowBias.ofVec_apply]
  rfl

/-- A block of rows of the result depends on the same rows of the two row-indexed operands and on the whole bias:
    if the blocks x0, x1 hold rows p ↦ p' of a and s, and x2 is b, the block's entry (p, q) is the array's (p', q). -/
theorem block_point (a : Vec Ideal S50000x128 .f32) (s : Vec Ideal S50000x1 .f32) (b : Vec Ideal S128 .f32)
    (x0 : Vec Ideal S5000x128 .f32) (x1 : Vec Ideal S5000x1 .f32) (x2 : Vec Ideal S128 .f32)
    (p : Fin 5000) (q : Fin 128) (p' : Fin 50000)
    (h0 : x0 (ix2 p q) = a (ix2 p' q))
    (h1 : x1 (ix2 p (0 : Fin 1)) = s (ix2 p' (0 : Fin 1)))
    (h2 : x2 (ix1 q) = b (ix1 q)) :
    k1_pay1 (F := Ideal) x0 x1 x2 (ix2 p q) = Cert.Spec.biasedRelu (N := 50000) (E := 128) a s b (ix2 p' q) := by
  rw [pay_apply, Cert.Spec.biasedRelu_apply]
  unfold Cert.Spec.biasedReluAt
  rw [h0, h1, h2]

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two row-indexed inputs and the output are at block row t, block column 0; the bias
    is at block 0 at every point. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 1) = 0
    ∧ win1_3.index t (0 : Fin 2) = t.val
    ∧ win1_3.index t (1 : Fin 2) = 0
    ∧ t.val ≤ 9 :=
  (by decide +kernel : ∀ t : Fin grid1.N, _)

/-- What point t writes back is block t of the whole-array function: rows 5000 t … 5000 t + 4999. -/
theorem flushed_eq (c : Dev nD) (t : Fin cfg1.N) :
    (dat1 (F := Ideal) V c).flushed 3 t = ((cfg1.win 3).blk t).view.read (Elt Ideal)
      (Cert.Spec.biasedRelu (N := 50000) (E := 128) (V c main_v27) (V c main_v16) (V c main_arg2)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S5000x1) hz2, View.ld_unit_zero (S := S128) hz1]
  obtain ⟨e0, e1, e2, e3, e4, e5, e6, ht⟩ := idx_facts t
  funext j
  obtain ⟨p, q, rfl⟩ : ∃ (p : Fin 5000) (q : Fin 128), j = ix2 p q := ⟨j 0, j 1, eq_ix2 j⟩
  have hp : p.val < 5000 := p.isLt
  show k1_pay1 (F := Ideal) (iblk1 V c 0 t) (iblk1 V c 1 t) (iblk1 V c 2 t) (ix2 p q)
    = Cert.Spec.biasedRelu (N := 50000) (E := 128) (V c main_v27) (V c main_v16) (V c main_arg2) (((cfg1.win 3).blk t).view.emb (ix2 p q))
  refine (block_point (V c main_v27) (V c main_v16) (V c main_arg2) (iblk1 V c 0 t) (iblk1 V c 1 t) (iblk1 V c 2 t)
    p q ⟨t.val * 5000 + p.val, by omega⟩ ?_ ?_ ?_).trans ?_
  · show V c main_v27 (((cfg1.win 0).blk t).view.emb (ix2 p q)) = V c main_v27 (ix2 ⟨t.val * 5000 + p.val, by omega⟩ q)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  · show V c main_v16 (((cfg1.win 1).blk t).view.emb (ix2 p (0 : Fin 1))) = V c main_v16 (ix2 ⟨t.val * 5000 + p.val, by omega⟩ (0 : Fin 1))
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_arg2 (((cfg1.win 2).blk t).view.emb (ix1 q)) = V c main_arg2 (ix1 q)
    refine congrArg _ (funext fun a => Fin.ext ?_)
    match a with
    | ⟨0, _⟩ => show win1_2.index t (0 : Fin 1) * 128 + 1 * q.val = q.val; omega
  · refine congrArg _ (funext fun a => Fin.ext ?_)
    match a with
    | ⟨0, _⟩ => show t.val * 5000 + p.val = win1_3.index t (0 : Fin 2) * 5000 + 1 * p.val; omega
    | ⟨1, _⟩ => show q.val = win1_3.index t (1 : Fin 2) * 128 + 1 * q.val; omega

/-- An index of the array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v28).slice (win1_3.rect t)).set ↔ _
  rw [View.set_slice_whole, Rect.mem_set_unit]
  exact Iff.rfl

/-- Row r of the array lies in the block of point r / 5000, which is written back. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 := ⟨⟨(i 0).val / 5000, by show _ < grid1.N; omega⟩, rfl⟩
  obtain ⟨-, -, -, -, -, e5, e6, -⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

end Aggregate1

/-- The array the second region leaves. -/
theorem final1 (c : Dev nD) : (dat1 (F := Ideal) V c).arrAt 3 cfg1.N
    = Cert.Spec.biasedRelu (N := 50000) (E := 128) (V c main_v27) (V c main_v16) (V c main_arg2) :=
  (dat1 (F := Ideal) V c).arrAt_eq_of_cover 3 _ (fun t _ => Aggregate1.flushed_eq V c t) Aggregate1.cover

end Cert.KernelIdeal.Val

end
-- ==== Proof.RegionTransform2.lean ====
/-
  The second layer's feature transform (the third kernel region), read as a whole array: (h1 · W1) with row p scaled by cs[p, 0].

  Ten points again, point t on rows 5000·t … 5000·t + 4999 of the first layer's output h1 and of the norm column, against
  the whole second weight matrix. The block's arithmetic is the first transform's, the block of rows first passing through
  a reshape to its own shape, which changes nothing: entry (p, q) is (∑ k, h[p, k] · W[k, q]) · s[p, 0]. So each block
  written back is the same rows of the scaled product of the whole arrays, and the ten blocks tile the 50000 rows.
-/
import proofs.«122954_j73830487818453_1_alg».proof.Proof.KernelIdealFrame
import proofs.«122954_j73830487818453_1_alg».proof.Proof.Spec
import proofs.«122954_j73830487818453_1_alg».proof.Proof.LibPlainDot
import proofs.«122954_j73830487818453_1_alg».proof.Proof.LibColumn

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

namespace Transform2

/-- The product's dimension numbers are those of a plain 5000×128 by 128×128 product. -/
theorem dims_plain : dot_S5000x128_S128x128_S5000x128_1_0_0_1_n_n = DotDims.plain 5000 128 128 := rfl

/-- One block's arithmetic at (p, q): the block of rows (reshaped to its own shape: unchanged) times the weights, summed
    over the 128 shared coordinates, times the block's column entry in row p. Narrowing a format changes nothing on the
    extended reals, and the column spread along the rows reads its entry (p, 0). -/
theorem payload_apply (v0 : Vec Ideal S5000x128 .f32) (v3 : Vec Ideal S128x128 .f32) (v6 : Vec Ideal S5000x1 .f32)
    (p : Fin 5000) (q : Fin 128) :
    k2_pay1 (F := Ideal) v0 v3 v6 (ix2 p q) = Cert.Spec.scaledProductAt (N := 5000) (D := 128) (E := 128) v0 v3 v6 p q := by
  unfold k2_pay1 Cert.Spec.scaledProductAt
  rw [mulf_apply, dims_plain, shapeCast_self v0, shapeCast_self v6]
  refine congrArg₂ (· * ·) ?_ ?_
  · exact Cert.PlainDot.matmul_zero_apply (M := 5000) (K := 128) (N := 128) none
      (truncf .bf16 v0 bitsLt_bf16_f32) (truncf .bf16 v3 bitsLt_bf16_f32) p q
  · exact Idealize.ShloMosaic.Column.broadcastTo_a1_ab_apply (a := 5000) (b := 128) (by decide) v6 broadcasts_S5000x1_S5000x128 p q

theorem origin : (![0, 0] : Fin 2 → Nat) = fun _ => 0 := funext fun a => by fin_cases a <;> rfl

/-- Where each window's block sits at point t: h1, the norm column and the output move down the rows with the point
    (block t along axis 0, block 0 along axis 1); the weights stay at block (0, 0). -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row p of h1's block at point t is row 5000·t + p of h1. -/
theorem rows_apply (c : Dev nD) (t : Fin cfg2.N) (p : Fin 5000) (k : Fin 128) (r : Fin 50000)
    (hr : r.val = t.val * 5000 + p.val) :
    (iblk2 V c 0 t : Vec Ideal S5000x128 .f32) (ix2 p k) = (V c main_v28 : Vec Ideal S50000x128 .f32) (ix2 r k) := by
  obtain ⟨e0, e1, -⟩ := block_index t
  show V c main_v28 (((cfg2.win 0).blk t).view.emb (ix2 p k)) = V c main_v28 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weights' block is the whole second weight matrix at every point. -/
theorem weights_apply (c : Dev nD) (t : Fin cfg2.N) (k : Fin 128) (q : Fin 128) :
    (iblk2 V c 1 t : Vec Ideal S128x128 .f32) (ix2 k q) = (V c main_arg3 : Vec Ideal S128x128 .f32) (ix2 k q) := by
  obtain ⟨-, -, e0, e1, -⟩ := block_index t
  show V c main_arg3 (((cfg2.win 1).blk t).view.emb (ix2 k q)) = V c main_arg3 (ix2 k q)
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- Entry p of the norm column's block at point t is entry 5000·t + p of the column. -/
theorem scale_apply (c : Dev nD) (t : Fin cfg2.N) (p : Fin 5000) (r : Fin 50000)
    (hr : r.val = t.val * 5000 + p.val) :
    (iblk2 V c 2 t : Vec Ideal S5000x1 .f32) (ix2 p (0 : Fin 1)) = (V c main_v11 : Vec Ideal S50000x1 .f32) (ix2 r (0 : Fin 1)) := by
  obtain ⟨-, -, -, -, e0, e1, -⟩ := block_index t
  show V c main_v11 (((cfg2.win 2).blk t).view.emb (ix2 p (0 : Fin 1))) = V c main_v11 (ix2 r (0 : Fin 1))
  refine congrArg _ (funext fun a => Fin.ext ?_)
  match a with
  | ⟨0, _⟩ => show win2_2.index t (0 : Fin 2) * 5000 + 1 * p.val = r.val; omega
  | ⟨1, _⟩ => show win2_2.index t (1 : Fin 2) * 1 + 1 * 0 = 0; omega

/-- Entry (p, q) of what point t computes is entry (5000·t + p, q) of the scaled product of the whole arrays: the sum
    runs over the same 128 coordinates, its row of h1 and its column entry are those of row 5000·t + p. -/
theorem block_entry (c : Dev nD) (t : Fin cfg2.N) (j : S5000x128.Idx) :
    k2_pay1 (F := Ideal) (iblk2 V c 0 t) (iblk2 V c 1 t) (iblk2 V c 2 t) j
      = Cert.Spec.scaledProduct (N := 50000) (D := 128) (E := 128) (V c main_v28) (V c main_arg3) (V c main_v11)
          (((cfg2.win 3).blk t).view.emb j) := by
  obtain ⟨p, q, rfl⟩ : ∃ (p : Fin 5000) (q : Fin 128), j = ix2 p q := ⟨j 0, j 1, eq_ix2 j⟩
  have hN : cfg2.N = 10 := N_2
  have ht : t.val < 10 := hN ▸ t.isLt
  obtain ⟨r, hr⟩ : ∃ r : Fin 50000, r.val = t.val * 5000 + p.val := ⟨⟨t.val * 5000 + p.val, by omega⟩, rfl⟩
  obtain ⟨-, -, -, -, -, -, e0, e1⟩ := block_index t
  have he : ((cfg2.win 3).blk t).view.emb (ix2 p q) = (ix2 r q : S50000x128.Idx) := by
    funext a; apply Fin.ext
    match a with
    | ⟨0, _⟩ => show win2_3.index t (0 : Fin 2) * 5000 + 1 * p.val = r.val; omega
    | ⟨1, _⟩ => show win2_3.index t (1 : Fin 2) * 128 + 1 * q.val = q.val; omega
  rw [he, Cert.Spec.scaledProduct_apply]
  refine (payload_apply _ _ _ p q).trans ?_
  unfold Cert.Spec.scaledProductAt
  refine congrArg₂ (· * ·) (Finset.sum_congr rfl fun k _ => congrArg₂ (· * ·) ?_ ?_) ?_
  · exact rows_apply V c t p k r hr
  · exact weights_apply V c t k q
  · exact scale_apply V c t p r hr

/-- What point t writes back is block t of the scaled product of the whole arrays. -/
theorem flushed_eq (c : Dev nD) (t : Fin cfg2.N) :
    (dat2 (F := Ideal) V c).flushed 3 t = ((cfg2.win 3).blk t).view.read (Elt Ideal)
      (Cert.Spec.scaledProduct (N := 50000) (D := 128) (E := 128) (V c main_v28) (V c main_arg3) (V c main_v11)) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x128) origin,
    View.ld_unit_zero (S := S5000x1) origin]
  funext j
  exact block_entry V c t j

/-- An index of the output lies in point t's block iff each coordinate lies in the block's range on its axis. -/
theorem mem_blk (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v29).slice (win2_3.rect t)).set ↔ _
  rw [View.set_slice_whole, Rect.mem_set_unit]
  exact Iff.rfl

/-- The ten blocks cover the output: row r lies in the block of point r / 5000. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, e0, e1⟩ := block_index t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

end Transform2

/-- The array the third region leaves. -/
theorem final2 (c : Dev nD) : (dat2 (F := Ideal) V c).arrAt 3 cfg2.N
    = Cert.Spec.scaledProduct (N := 50000) (D := 128) (E := 128) (V c main_v28) (V c main_arg3) (V c main_v11) :=
  (dat2 V c).arrAt_eq_of_cover 3 _ (fun t _ => Transform2.flushed_eq V c t) Transform2.cover

end Cert.KernelIdeal.Val

end
-- ==== Proof.RegionAggregate2.lean ====
/-
  The second layer's output stage (the fourth kernel region), read as a whole array: max (agg · cd + b1, 0).
-/
import proofs.«122954_j73830487818453_1_alg».proof.Proof.KernelIdealFrame
import proofs.«122954_j73830487818453_1_alg».proof.Proof.Spec
import proofs.«122954_j73830487818453_1_alg».proof.Proof.LibRowBias
import proofs.«122954_j73830487818453_1_alg».proof.Proof.LibColumn

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.GenP

variable (V : (c : Dev nD) → (b : Ref sig .tc) → Buf (Elt Ideal) ((c : Thread nD τ).loc b))

namespace Aggregate2

/-- Entry (p, q) of the stored block: max (v0[p, q] · v2[p, 0] + v6[q], 0). The two layout casts are identities, the
    column is broadcast along its unit axis, the bias vector is laid out as one row and broadcast down the rows. -/
theorem pay_apply (v0 : Vec Ideal S5000x128 .f32) (v2 : Vec Ideal S5000x1 .f32) (v6 : Vec Ideal S128 .f32)
    (p : Fin 5000) (q : Fin 128) :
    k3_pay1 (F := Ideal) v0 v2 v6 (ix2 p q) = Cert.Spec.biasedReluAt (N := 5000) (E := 128) v0 v2 v6 p q := by
  unfold k3_pay1
  rw [maximumf_apply, addf_apply, mulf_apply, broadcast_apply, shapeCast_self, shapeCast_self,
    Column.broadcastTo_a1_ab_apply (by decide), Cert.RowBias.rows_apply, Cert.RowBias.ofVec_apply]
  rfl

/-- A block of rows of the result depends on the same rows of the two row-indexed operands and on the whole bias:
    if the blocks x0, x1 hold rows p ↦ p' of a and s, and x2 is b, the block's entry (p, q) is the array's (p', q). -/
theorem block_point (a : Vec Ideal S50000x128 .f32) (s : Vec Ideal S50000x1 .f32) (b : Vec Ideal S128 .f32)
    (x0 : Vec Ideal S5000x128 .f32) (x1 : Vec Ideal S5000x1 .f32) (x2 : Vec Ideal S128 .f32)
    (p : Fin 5000) (q : Fin 128) (p' : Fin 50000)
    (h0 : x0 (ix2 p q) = a (ix2 p' q))
    (h1 : x1 (ix2 p (0 : Fin 1)) = s (ix2 p' (0 : Fin 1)))
    (h2 : x2 (ix1 q) = b (ix1 q)) :
    k3_pay1 (F := Ideal) x0 x1 x2 (ix2 p q) = Cert.Spec.biasedRelu (N := 50000) (E := 128) a s b (ix2 p' q) := by
  rw [pay_apply, Cert.Spec.biasedRelu_apply]
  unfold Cert.Spec.biasedReluAt
  rw [h0, h1, h2]

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two row-indexed inputs and the output are at block row t, block column 0; the bias
    is at block 0 at every point. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 1) = 0
    ∧ win3_3.index t (0 : Fin 2) = t.val
    ∧ win3_3.index t (1 : Fin 2) = 0
    ∧ t.val ≤ 9 :=
  (by decide +kernel : ∀ t : Fin grid3.N, _)

/-- What point t writes back is block t of the whole-array function: rows 5000 t … 5000 t + 4999. -/
theorem flushed_eq (c : Dev nD) (t : Fin cfg3.N) :
    (dat3 (F := Ideal) V c).flushed 3 t = ((cfg3.win 3).blk t).view.read (Elt Ideal)
      (Cert.Spec.biasedRelu (N := 50000) (E := 128) (V c main_v39) (V c main_v16) (V c main_arg4)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S5000x1) hz2, View.ld_unit_zero (S := S128) hz1]
  obtain ⟨e0, e1, e2, e3, e4, e5, e6, ht⟩ := idx_facts t
  funext j
  obtain ⟨p, q, rfl⟩ : ∃ (p : Fin 5000) (q : Fin 128), j = ix2 p q := ⟨j 0, j 1, eq_ix2 j⟩
  have hp : p.val < 5000 := p.isLt
  show k3_pay1 (F := Ideal) (iblk3 V c 0 t) (iblk3 V c 1 t) (iblk3 V c 2 t) (ix2 p q)
    = Cert.Spec.biasedRelu (N := 50000) (E := 128) (V c main_v39) (V c main_v16) (V c main_arg4) (((cfg3.win 3).blk t).view.emb (ix2 p q))
  refine (block_point (V c main_v39) (V c main_v16) (V c main_arg4) (iblk3 V c 0 t) (iblk3 V c 1 t) (iblk3 V c 2 t)
    p q ⟨t.val * 5000 + p.val, by omega⟩ ?_ ?_ ?_).trans ?_
  · show V c main_v39 (((cfg3.win 0).blk t).view.emb (ix2 p q)) = V c main_v39 (ix2 ⟨t.val * 5000 + p.val, by omega⟩ q)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  · show V c main_v16 (((cfg3.win 1).blk t).view.emb (ix2 p (0 : Fin 1))) = V c main_v16 (ix2 ⟨t.val * 5000 + p.val, by omega⟩ (0 : Fin 1))
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 1 + 1 * 0 = 0; omega
  · show V c main_arg4 (((cfg3.win 2).blk t).view.emb (ix1 q)) = V c main_arg4 (ix1 q)
    refine congrArg _ (funext fun a => Fin.ext ?_)
    match a with
    | ⟨0, _⟩ => show win3_2.index t (0 : Fin 1) * 128 + 1 * q.val = q.val; omega
  · refine congrArg _ (funext fun a => Fin.ext ?_)
    match a with
    | ⟨0, _⟩ => show t.val * 5000 + p.val = win3_3.index t (0 : Fin 2) * 5000 + 1 * p.val; omega
    | ⟨1, _⟩ => show q.val = win3_3.index t (1 : Fin 2) * 128 + 1 * q.val; omega

/-- An index of the array is in point t's block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v40).slice (win3_3.rect t)).set ↔ _
  rw [View.set_slice_whole, Rect.mem_set_unit]
  exact Iff.rfl

/-- Row r of the array lies in the block of point r / 5000, which is written back. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 := ⟨⟨(i 0).val / 5000, by show _ < grid3.N; omega⟩, rfl⟩
  obtain ⟨-, -, -, -, -, e5, e6, -⟩ := idx_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

end Aggregate2

/-- The array the fourth region leaves. -/
theorem final3 (c : Dev nD) : (dat3 (F := Ideal) V c).arrAt 3 cfg3.N
    = Cert.Spec.biasedRelu (N := 50000) (E := 128) (V c main_v39) (V c main_v16) (V c main_arg4) :=
  (dat3 (F := Ideal) V c).arrAt_eq_of_cover 3 _ (fun t _ => Aggregate2.flushed_eq V c t) Aggregate2.cover

end Cert.KernelIdeal.Val

end
-- ==== Proof.RegionHead.lean ====
/-
  The perceptron head (the fifth kernel region), read as a whole array: tanh (u · Ws1 + bs1) · Ws2 + bs2 of the gathered
  user rows, written back in five blocks of 2000 rows.
-/
import proofs.«122954_j73830487818453_1_alg».proof.Proof.KernelIdealFrame
import proofs.«122954_j73830487818453_1_alg».proof.Proof.Spec
import proofs.«122954_j73830487818453_1_alg».proof.Proof.LibPlainDot
import proofs.«122954_j73830487818453_1_alg».proof.Proof.LibRowBias

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.GenP
open scoped BigOperators

variable (V : (c : Dev nD) → (b : Ref sig .tc) → Buf (Elt Ideal) ((c : Thread nD τ).loc b))

/-! ## The payload at an index -/

/-- The dimension numbers of the hidden layer's product are those of a plain 2000×128 by 128×64 product. -/
theorem dims_hidden : dot_S2000x128_S128x64_S2000x64_1_0_0_1_n_n = DotDims.plain 2000 128 64 := rfl

/-- The dimension numbers of the output layer's product are those of a plain 2000×64 by 64×64 product. -/
theorem dims_out : dot_S2000x64_S64x64_S2000x64_1_0_0_1_n_n = DotDims.plain 2000 64 64 := rfl

/-- A bias vector laid out as one row and repeated down the 2000 rows holds at (p, q) the vector's entry q. -/
theorem bias_rows_apply (b : FVec Ideal S64 .f32) (p : Fin 2000) (q : Fin 64) :
    broadcastTo S2000x64 (shapeCast S1x64 b shapeCasts_S64_S1x64) broadcasts_S1x64_S2000x64 (ix2 p q) = b (ix1 q) :=
  (Cert.RowBias.rows_apply _ broadcasts_S1x64_S2000x64 p q).trans (Cert.RowBias.ofVec_apply b shapeCasts_S64_S1x64 q)

/-- The hidden layer before its bias: entry (p, k) of u · A. On the extended reals the operands' narrowing is the
    identity, and the product into the zero accumulator is the sum over the 128 input features. -/
theorem hidden_product_apply (u : FVec Ideal S2000x128 .f32) (A : FVec Ideal S128x64 .f32) (p : Fin 2000) (k : Fin 64) :
    matmul dot_S2000x128_S128x64_S2000x64_1_0_0_1_n_n none
        (truncf .bf16 (shapeCast S2000x128 u shapeCasts_S2000x128_S2000x128) bitsLt_bf16_f32)
        (truncf .bf16 A bitsLt_bf16_f32) (constant (F := Ideal) S2000x64 .f32 0x00000000#32) (ix2 p k)
      = ∑ j : Fin 128, u (ix2 p j) * A (ix2 j k) := by
  rw [dims_hidden, shapeCast_self]
  exact Cert.PlainDot.matmul_zero_apply none _ _ p k

/-- The hidden layer: entry (p, k) of tanh (u · A + a). -/
theorem hidden_apply (u : FVec Ideal S2000x128 .f32) (A : FVec Ideal S128x64 .f32) (a : FVec Ideal S64 .f32) (p : Fin 2000) (k : Fin 64) :
    tanh (addf (matmul dot_S2000x128_S128x64_S2000x64_1_0_0_1_n_n none
        (truncf .bf16 (shapeCast S2000x128 u shapeCasts_S2000x128_S2000x128) bitsLt_bf16_f32)
        (truncf .bf16 A bitsLt_bf16_f32) (constant (F := Ideal) S2000x64 .f32 0x00000000#32))
        (broadcastTo S2000x64 (shapeCast S1x64 a shapeCasts_S64_S1x64) broadcasts_S1x64_S2000x64)) (ix2 p k)
      = Ideal.tanh ((∑ j : Fin 128, u (ix2 p j) * A (ix2 j k)) + a (ix1 k)) :=
  congrArg Ideal.tanh (congrArg₂ (· + ·) (hidden_product_apply u A p k) (bias_rows_apply a p k))

/-- The output layer before its bias: entry (p, q) of h · B, the sum over the 64 hidden units. -/
theorem out_product_apply (h : FVec Ideal S2000x64 .f32) (B : FVec Ideal S64x64 .f32) (p : Fin 2000) (q : Fin 64) :
    matmul dot_S2000x64_S64x64_S2000x64_1_0_0_1_n_n none (truncf .bf16 h bitsLt_bf16_f32) (truncf .bf16 B bitsLt_bf16_f32)
        (constant (F := Ideal) S2000x64 .f32 0x00000000#32) (ix2 p q)
      = ∑ k : Fin 64, h (ix2 p k) * B (ix2 k q) := by
  rw [dims_out]
  exact Cert.PlainDot.matmul_zero_apply none _ _ p q

/-- The body's one stored value at (p, q): tanh (u · A + a) · B + b of the loaded blocks, the hidden layer read at
    (p, k) under the sum over the hidden units. -/
theorem head_payload_apply (u : FVec Ideal S2000x128 .f32) (A : FVec Ideal S128x64 .f32) (a : FVec Ideal S64 .f32)
    (B : FVec Ideal S64x64 .f32) (b : FVec Ideal S64 .f32) (p : Fin 2000) (q : Fin 64) :
    k4_pay1 (F := Ideal) u A a B b (ix2 p q) = Cert.Spec.headAt (N := 2000) (D := 128) (H := 64) (O := 64) u A a B b p q := by
  unfold k4_pay1
  refine (congrArg₂ (· + ·) (out_product_apply _ B p q) (bias_rows_apply b p q)).trans ?_
  unfold Cert.Spec.headAt
  refine congrArg (· + b (ix1 q)) (Finset.sum_congr rfl fun k _ => ?_)
  exact congrArg (· * B (ix2 k q)) (hidden_apply u A a p k)

/-! ## The index maps -/

theorem zeros2 : (![0, 0] : Fin 2 → Nat) = fun _ => 0 := funext fun a => by fin_cases a <;> rfl

theorem zeros1 : (![0] : Fin 1 → Nat) = fun _ => 0 := funext fun a => by fin_cases a; rfl

/-- Over the five grid points: the gathered rows' window and the output's window sit at block row t, column block 0; the
    two weight matrices and the two bias vectors stay at block 0. -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-! ## A block of rows of the head -/

/-- Row p of the head of a block whose row p is row P of the gathered features is row P of the head of the whole array:
    a row of the result depends on the same row of the features and on all of the weights and biases. -/
theorem head_payload_rows (U : FVec Ideal S10000x128 .f32) (A : FVec Ideal S128x64 .f32) (a : FVec Ideal S64 .f32)
    (B : FVec Ideal S64x64 .f32) (b : FVec Ideal S64 .f32) (u : FVec Ideal S2000x128 .f32)
    (p : Fin 2000) (P : Fin 10000) (q : Fin 64) (hu : ∀ j : Fin 128, u (ix2 p j) = U (ix2 P j)) :
    k4_pay1 (F := Ideal) u A a B b (ix2 p q)
      = Cert.Spec.head (N := 10000) (D := 128) (H := 64) (O := 64) U A a B b (ix2 P q) := by
  rw [head_payload_apply, Cert.Spec.head_apply]
  unfold Cert.Spec.headAt
  simp only [hu]

/-- The same with the two indices given whole: y in the block and i in the array agree in the column, and the block's
    row (y 0) is the array's row (i 0); the weights and biases the body loaded are the arrays'. -/
theorem head_payload_at (U : FVec Ideal S10000x128 .f32) (A : FVec Ideal S128x64 .f32) (a : FVec Ideal S64 .f32)
    (B : FVec Ideal S64x64 .f32) (b : FVec Ideal S64 .f32) (u : FVec Ideal S2000x128 .f32) (A' : FVec Ideal S128x64 .f32)
    (a' : FVec Ideal S64 .f32) (B' : FVec Ideal S64x64 .f32) (b' : FVec Ideal S64 .f32)
    (y : S2000x64.Idx) (i : S10000x64.Idx) (hA : A' = A) (ha : a' = a) (hB : B' = B) (hb : b' = b)
    (hq : (i 1).val = (y 1).val)
    (hu : ∀ (x : S2000x128.Idx) (k : S10000x128.Idx), (x 0).val = (y 0).val → (k 0).val = (i 0).val → (k 1).val = (x 1).val → u x = U k) :
    k4_pay1 (F := Ideal) u A' a' B' b' y
      = Cert.Spec.head (N := 10000) (D := 128) (H := 64) (O := 64) U A a B b i := by
  subst hA ha hB hb
  obtain ⟨p, q, rfl⟩ : ∃ (p : Fin 2000) (q : Fin 64), y = ix2 p q := ⟨y 0, y 1, eq_ix2 y⟩
  obtain ⟨P, Q, rfl⟩ : ∃ (P : Fin 10000) (Q : Fin 64), i = ix2 P Q := ⟨i 0, i 1, eq_ix2 i⟩
  obtain rfl : Q = q := Fin.ext hq
  exact head_payload_rows U A' a' B' b' u p P Q fun j => hu (ix2 p j) (ix2 P j) rfl rfl rfl

/-! ## The input blocks -/

/-- The first weight matrix's window is the whole matrix at every point. -/
theorem block_hidden_weights (c : Dev nD) (t : Fin cfg4.N) :
    (iblk4 (F := Ideal) V c 1 t : FVec Ideal S128x64 .f32) = (V c main_arg5 : FVec Ideal S128x64 .f32) := by
  obtain ⟨-, -, e0, e1, -⟩ := index_facts t
  funext x
  show V c main_arg5 (((cfg4.win 1).blk t).view.emb x) = V c main_arg5 x
  refine congrArg _ (funext fun d => Fin.ext ?_)
  match d with
  | ⟨0, _⟩ => show win4_1.index t (0 : Fin 2) * 128 + 1 * (x 0).val = (x 0).val; omega
  | ⟨1, _⟩ => show win4_1.index t (1 : Fin 2) * 64 + 1 * (x 1).val = (x 1).val; omega

/-- The first bias vector's window is the whole vector at every point. -/
theorem block_hidden_bias (c : Dev nD) (t : Fin cfg4.N) :
    (iblk4 (F := Ideal) V c 2 t : FVec Ideal S64 .f32) = (V c main_arg6 : FVec Ideal S64 .f32) := by
  obtain ⟨-, -, -, -, e0, -⟩ := index_facts t
  funext x
  show V c main_arg6 (((cfg4.win 2).blk t).view.emb x) = V c main_arg6 x
  refine congrArg _ (funext fun d => Fin.ext ?_)
  match d with
  | ⟨0, _⟩ => show win4_2.index t (0 : Fin 1) * 64 + 1 * (x 0).val = (x 0).val; omega

/-- The second weight matrix's window is the whole matrix at every point. -/
theorem block_out_weights (c : Dev nD) (t : Fin cfg4.N) :
    (iblk4 (F := Ideal) V c 3 t : FVec Ideal S64x64 .f32) = (V c main_arg7 : FVec Ideal S64x64 .f32) := by
  obtain ⟨-, -, -, -, -, e0, e1, -⟩ := index_facts t
  funext x
  show V c main_arg7 (((cfg4.win 3).blk t).view.emb x) = V c main_arg7 x
  refine congrArg _ (funext fun d => Fin.ext ?_)
  match d with
  | ⟨0, _⟩ => show win4_3.index t (0 : Fin 2) * 64 + 1 * (x 0).val = (x 0).val; omega
  | ⟨1, _⟩ => show win4_3.index t (1 : Fin 2) * 64 + 1 * (x 1).val = (x 1).val; omega

/-- The second bias vector's window is the whole vector at every point. -/
theorem block_out_bias (c : Dev nD) (t : Fin cfg4.N) :
    (iblk4 (F := Ideal) V c 4 t : FVec Ideal S64 .f32) = (V c main_arg8 : FVec Ideal S64 .f32) := by
  obtain ⟨-, -, -, -, -, -, -, e0, -⟩ := index_facts t
  funext x
  show V c main_arg8 (((cfg4.win 4).blk t).view.emb x) = V c main_arg8 x
  refine congrArg _ (funext fun d => Fin.ext ?_)
  match d with
  | ⟨0, _⟩ => show win4_4.index t (0 : Fin 1) * 64 + 1 * (x 0).val = (x 0).val; omega

/-! ## What a point writes back -/

/-- Point t writes back rows 2000 t … 2000 t + 1999 of the head of the arrays as the region finds them: the gathered
    rows' block sits at the same block row as the output's, the weights and biases are whole. -/
theorem flushed_head (c : Dev nD) (t : Fin cfg4.N) :
    (dat4 (F := Ideal) V c).flushed 5 t = ((cfg4.win 5).blk t).view.read (Elt Ideal)
      (Cert.Spec.head (N := 10000) (D := 128) (H := 64) (O := 64) (V c main_v47) (V c main_arg5) (V c main_arg6) (V c main_arg7) (V c main_arg8)) := by
  show (cfg4.win 5).cut (grid4.coords t) ((dat4 V c).after 5 t) = _
  rw [after4_5]
  unfold out4_5
  rw [View.canon_unit_zero zeros2]
  simp only [View.ld_unit_zero (S := S2000x128) zeros2, View.ld_unit_zero (S := S128x64) zeros2, View.ld_unit_zero (S := S64x64) zeros2, View.ld_unit_zero (S := S64) zeros1]
  obtain ⟨e00, e01, -, -, -, -, -, -, e50, e51⟩ := index_facts t
  funext y
  refine head_payload_at (V c main_v47) (V c main_arg5) (V c main_arg6) (V c main_arg7) (V c main_arg8)
    (iblk4 V c 0 t) (iblk4 V c 1 t) (iblk4 V c 2 t) (iblk4 V c 3 t) (iblk4 V c 4 t) y (((cfg4.win 5).blk t).view.emb y)
    (block_hidden_weights V c t) (block_hidden_bias V c t) (block_out_weights V c t) (block_out_bias V c t) ?_ ?_
  · show win4_5.index t (1 : Fin 2) * 64 + 1 * (y 1).val = (y 1).val
    omega
  · intro x k hx hk0 hk1
    show V c main_v47 (((cfg4.win 0).blk t).view.emb x) = V c main_v47 k
    refine congrArg _ (funext fun d => Fin.ext ?_)
    have hk0' : (k 0).val = win4_5.index t (0 : Fin 2) * 2000 + 1 * (y 0).val := hk0
    match d with
    | ⟨0, _⟩ => show win4_0.index t (0 : Fin 2) * 2000 + 1 * (x 0).val = (k 0).val; omega
    | ⟨1, _⟩ => show win4_0.index t (1 : Fin 2) * 128 + 1 * (x 1).val = (k 1).val; omega

/-! ## The cover -/

/-- An index of the array is in point t's block iff each coordinate is in the block's range on its axis. -/
theorem mem_block (t : Fin cfg4.N) (i : S10000x64.Idx) :
    i ∈ ((cfg4.win 5).blk t).view.set ↔ ∀ a : Fin 2, win4_5.index t a * S2000x64.size a ≤ (i a).val ∧ (i a).val < win4_5.index t a * S2000x64.size a + S2000x64.size a := by
  show i ∈ ((View.whole main_v48).slice (win4_5.rect t)).set ↔ _
  rw [View.set_slice_whole, Rect.mem_set_unit]
  exact Iff.rfl

/-- Row r of the array is in the block of the point r / 2000: the five blocks of 2000 rows tile the 10000 rows. -/
theorem rows_covered (i : S10000x64.Idx) :
    ∃ t : Fin cfg4.N, (cfg4.win 5).flush t = true ∧ i ∈ ((cfg4.win 5).blk t).view.set := by
  have hi0 : (i 0).val < 10000 := (i 0).isLt
  have hi1 : (i 1).val < 64 := (i 1).isLt
  have hN : grid4.N = 5 := N_4
  have ht : (i 0).val / 2000 < grid4.N := by rw [hN]; omega
  obtain ⟨-, -, -, -, -, -, -, -, e0, e1⟩ := index_facts ⟨(i 0).val / 2000, ht⟩
  refine ⟨⟨(i 0).val / 2000, ht⟩, flush4_5 _, ?_⟩
  rw [mem_block]
  intro a
  match a with
  | ⟨0, _⟩ =>
    show win4_5.index ⟨(i 0).val / 2000, ht⟩ (0 : Fin 2) * 2000 ≤ (i 0).val ∧ (i 0).val < win4_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win4_5.index ⟨(i 0).val / 2000, ht⟩ (1 : Fin 2) * 64 ≤ (i 1).val ∧ (i 1).val < win4_5.index ⟨(i 0).val / 2000, ht⟩ (1 : Fin 2) * 64 + 64
    rw [e1]
    omega

/-! ## The array -/

/-- The array the fifth region leaves. -/
theorem final4 (c : Dev nD) : (dat4 (F := Ideal) V c).arrAt 5 cfg4.N
    = Cert.Spec.head (N := 10000) (D := 128) (H := 64) (O := 64) (V c main_v47) (V c main_arg5) (V c main_arg6) (V c main_arg7) (V c main_arg8) := by
  exact (dat4 (F := Ideal) V c).arrAt_eq_of_cover 5 _ (fun t _ => flushed_head V c t) rows_covered

end Cert.KernelIdeal.Val

end
-- ==== Proof.KernelValue.lean ====
/-
  The kernel program's two results as functions of its argument arrays, on the extended reals.

  With cs, cd the source- and destination-side degree-norm columns, a layer maps node features h to
    max (aggregate (scaledProduct h W cs) · cd + b, 0),
  the aggregation the edge-wise gather and scatter-add; the second result is the second layer's output h2, and the
  first is the perceptron head of the rows of h2 at the user indices. Each region's array is its specification of the
  arrays it finds (the five region modules), each stretch's array the host chain of the buffers it finds, and what
  each finds is traced back to the arguments (Boundaries).
-/
import proofs.«122954_j73830487818453_1_alg».proof.Proof.Boundaries
import proofs.«122954_j73830487818453_1_alg».proof.Proof.KernelIdealRun
import proofs.«122954_j73830487818453_1_alg».proof.Proof.RegionTransform1
import proofs.«122954_j73830487818453_1_alg».proof.Proof.RegionAggregate1
import proofs.«122954_j73830487818453_1_alg».proof.Proof.RegionTransform2
import proofs.«122954_j73830487818453_1_alg».proof.Proof.RegionAggregate2
import proofs.«122954_j73830487818453_1_alg».proof.Proof.RegionHead

noncomputable section

namespace Cert.KernelIdeal.Val

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg)

set_option quotPrecheck false in
local notation "⟪" b "⟫" => Proc.devRef .tc b

/-! ## The network, stage by stage -/

/-- The first layer's transformed features, scaled by the source-side norm. -/
def hw1 (c : Dev nD) : FVec Ideal S50000x128 .f32 :=
  Cert.Spec.scaledProduct (N := 50000) (D := 128) (E := 128) (m ((c : Thread nD τ).loc main_arg0)) (m ((c : Thread nD τ).loc main_arg1))
    (normCol (F := Ideal) (m ((c : Thread nD τ).loc main_arg9)))

/-- The first layer's output. -/
def h1 (c : Dev nD) : FVec Ideal S50000x128 .f32 :=
  Cert.Spec.biasedRelu (N := 50000) (E := 128)
    (aggregate (F := Ideal) (m ((c : Thread nD τ).loc main_arg9)) (m ((c : Thread nD τ).loc main_arg10)) (hw1 m c))
    (normCol (F := Ideal) (m ((c : Thread nD τ).loc main_arg10))) (m ((c : Thread nD τ).loc main_arg2))

/-- The second layer's transformed features. -/
def hw2 (c : Dev nD) : FVec Ideal S50000x128 .f32 :=
  Cert.Spec.scaledProduct (N := 50000) (D := 128) (E := 128) (h1 m c) (m ((c : Thread nD τ).loc main_arg3))
    (normCol (F := Ideal) (m ((c : Thread nD τ).loc main_arg9)))

/-- The second layer's output: the program's second result. -/
def h2 (c : Dev nD) : FVec Ideal S50000x128 .f32 :=
  Cert.Spec.biasedRelu (N := 50000) (E := 128)
    (aggregate (F := Ideal) (m ((c : Thread nD τ).loc main_arg9)) (m ((c : Thread nD τ).loc main_arg10)) (hw2 m c))
    (normCol (F := Ideal) (m ((c : Thread nD τ).loc main_arg10))) (m ((c : Thread nD τ).loc main_arg4))

/-- The head on the user rows: the program's first result. -/
def scores (c : Dev nD) : FVec Ideal S10000x64 .f32 :=
  Cert.Spec.head (N := 10000) (D := 128) (H := 64) (O := 64)
    (userRows (F := Ideal) (m ((c : Thread nD τ).loc main_arg11)) (h2 m c))
    (m ((c : Thread nD τ).loc main_arg5)) (m ((c : Thread nD τ).loc main_arg6)) (m ((c : Thread nD τ).loc main_arg7)) (m ((c : Thread nD τ).loc main_arg8))

/-! ## The fold through the program, boundary by boundary -/

theorem W2_v17 (c : Dev nD) : W2 m ρ c ⟪main_v17⟫ = hw1 m c :=
  (W2_arr m ρ c 3).trans ((final0 (V1 m ρ) c).trans (by
    show Cert.Spec.scaledProduct (N := 50000) (D := 128) (E := 128) (W1 m ρ c ⟪main_arg0⟫) (W1 m ρ c ⟪main_arg1⟫) (W1 m ρ c ⟪main_v11⟫) = _
    rw [W1_arg0, W1_arg1, W1_v11]; rfl))

theorem W3_v27 (c : Dev nD) : W3 m ρ c ⟪main_v27⟫
    = aggregate (F := Ideal) (m ((c : Thread nD τ).loc main_arg9)) (m ((c : Thread nD τ).loc main_arg10)) (hw1 m c) :=
  (after1_v27 (W2 m ρ c)).trans (by rw [W2_arg9, W2_arg10, W2_v17])

theorem W4_v28 (c : Dev nD) : W4 m ρ c ⟪main_v28⟫ = h1 m c :=
  (W4_arr m ρ c 3).trans ((final1 (V3 m ρ) c).trans (by
    show Cert.Spec.biasedRelu (N := 50000) (E := 128) (W3 m ρ c ⟪main_v27⟫) (W3 m ρ c ⟪main_v16⟫) (W3 m ρ c ⟪main_arg2⟫) = _
    rw [W3_v27, W3_v16, W3_arg2]; rfl))

theorem W5_v29 (c : Dev nD) : W5 m ρ c ⟪main_v29⟫ = hw2 m c :=
  (W5_arr m ρ c 3).trans ((final2 (V4 m ρ) c).trans (by
    show Cert.Spec.scaledProduct (N := 50000) (D := 128) (E := 128) (W4 m ρ c ⟪main_v28⟫) (W4 m ρ c ⟪main_arg3⟫) (W4 m ρ c ⟪main_v11⟫) = _
    rw [W4_v28, W4_arg3, W4_v11]; rfl))

theorem W6_v39 (c : Dev nD) : W6 m ρ c ⟪main_v39⟫
    = aggregate (F := Ideal) (m ((c : Thread nD τ).loc main_arg9)) (m ((c : Thread nD τ).loc main_arg10)) (hw2 m c) :=
  (after3_v39 (W5 m ρ c)).trans (by rw [W5_arg9, W5_arg10, W5_v29])

theorem W7_v40 (c : Dev nD) : W7 m ρ c ⟪main_v40⟫ = h2 m c :=
  (W7_arr m ρ c 3).trans ((final3 (V6 m ρ) c).trans (by
    show Cert.Spec.biasedRelu (N := 50000) (E := 128) (W6 m ρ c ⟪main_v39⟫) (W6 m ρ c ⟪main_v16⟫) (W6 m ρ c ⟪main_arg4⟫) = _
    rw [W6_v39, W6_v16, W6_arg4]; rfl))

theorem W8_v47 (c : Dev nD) : W8 m ρ c ⟪main_v47⟫ = userRows (F := Ideal) (m ((c : Thread nD τ).loc main_arg11)) (h2 m c) :=
  (after4_v47 (W7 m ρ c)).trans (by rw [W7_arg11, W7_v40])

theorem W9_v48 (c : Dev nD) : W9 m ρ c ⟪main_v48⟫ = scores m c :=
  (W9_arr m ρ c 5).trans ((final4 (V8 m ρ) c).trans (by
    show Cert.Spec.head (N := 10000) (D := 128) (H := 64) (O := 64) (W8 m ρ c ⟪main_v47⟫) (W8 m ρ c ⟪main_arg5⟫) (W8 m ρ c ⟪main_arg6⟫) (W8 m ρ c ⟪main_arg7⟫) (W8 m ρ c ⟪main_arg8⟫) = _
    rw [W8_v47, W8_arg5, W8_arg6, W8_arg7, W8_arg8]; rfl))

theorem W9_v40 (c : Dev nD) : W9 m ρ c ⟪main_v40⟫ = h2 m c :=
  (W9_of_ne m ρ c main_v40 (by decide)).trans ((keep4_v40 (W7 m ρ c)).trans (W7_v40 m ρ c))

/-! ## The run -/

/-- Every weakly fair execution of the kernel program ends with its two results at `scores` and `h2` of the
    argument arrays, the arguments unchanged. -/
theorem run : θ_run defs (onTc (τ := τ) (main (F := Ideal))) ⟨m, fun _ => 0, ρ⟩ (fun r => ∀ c : Dev nD,
      r.2.mem ((c : Thread nD τ).loc main_v48) = scores m c
      ∧ r.2.mem ((c : Thread nD τ).loc main_v40) = h2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun r h c =>
    ⟨(h c _ (mem_uc main_v48 (by decide))).trans (W9_v48 m ρ c),
     (h c _ (mem_uc main_v40 (by decide))).trans (W9_v40 m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c),
     (h c _ (mem_uc main_arg11 (by decide))).trans (W9_main_arg11 m ρ c)⟩)
    (run_final m ρ)

end Cert.KernelIdeal.Val

end
-- ==== Proof.RefOps.lean ====
/-
  The reference's three dense stages, each a short composition of host operations, are the specification's functions:
  index by index a host matrix product is the sum over the contracted coordinate, a column or a bias row broadcast
  reads the column's or the row's entry, and the elementwise operations act entrywise on the extended reals.
-/
import proofs.«122954_j73830487818453_1_alg».proof.Proof.Gen.ReferenceIdeal.Run
import proofs.«122954_j73830487818453_1_alg».proof.Proof.Spec
import proofs.«122954_j73830487818453_1_alg».proof.Proof.LibPlainDot
import proofs.«122954_j73830487818453_1_alg».proof.Proof.LibRowBias
import proofs.«122954_j73830487818453_1_alg».proof.Proof.LibColumn

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem

/-- The host's (x · W) · s, the column s broadcast along the rows' entries. -/
theorem scaledProduct_eq (x : FVec Ideal S50000x128 .f32) (W : FVec Ideal S128x128 .f32) (s : FVec Ideal S50000x1 .f32) :
    mulf (Host.dotGeneral dot_S50000x128_S128x128_S50000x128_1_0_0_1_n_n none x W)
        (broadcastInDim S50000x128 ![0, 1] bcast_S50000x1_S50000x128_0_1 s)
      = Cert.Spec.scaledProduct (N := 50000) (D := 128) (E := 128) x W s := by
  funext i
  obtain ⟨p, q, rfl⟩ : ∃ (p : Fin 50000) (q : Fin 128), i = ix2 p q := ⟨i 0, i 1, eq_ix2 i⟩
  rw [Cert.Spec.scaledProduct_apply]
  unfold Cert.Spec.scaledProductAt
  rw [mulf_apply]
  -- entry (p, q) of the product is the sum over the contracted coordinate: the record is the plain
  -- 50000×128 by 128×128 dimension numbers
  have hdot : Host.dotGeneral dot_S50000x128_S128x128_S50000x128_1_0_0_1_n_n none x W (ix2 p q)
      = ∑ k : Fin 128, x (ix2 p k) * W (ix2 k q) :=
    Cert.PlainDot.dotGeneral_apply (M := 50000) (K := 128) (N := 128) none .single x W p q
  -- the column broadcast along its unit axis reads, at (p, q), the column's entry (p, 0)
  have hcol : broadcastInDim S50000x128 ![0, 1] bcast_S50000x1_S50000x128_0_1 s (ix2 p q) = s (ix2 p (0 : Fin 1)) :=
    Idealize.ShloMosaic.Column.broadcastInDim_a1_ab_apply (a := 50000) (b := 128) (by decide) s ![0, 1] rfl rfl
      bcast_S50000x1_S50000x128_0_1 p q
  rw [hdot, hcol]

/-- The host's relu (a · s + b). -/
theorem biasedRelu_eq (a : FVec Ideal S50000x128 .f32) (s : FVec Ideal S50000x1 .f32) (b : FVec Ideal S128 .f32) :
    maximumf (addf (mulf a (broadcastInDim S50000x128 ![0, 1] bcast_S50000x1_S50000x128_0_1 s))
          (broadcastInDim S50000x128 ![0, 1] bcast_S1x128_S50000x128_0_1 (broadcastInDim S1x128 ![1] bcast_S128_S1x128_1 b)))
        (broadcastInDim S50000x128 ![] bcast_S_S50000x128 (constant S_ .f32 0x00000000#32))
      = Cert.Spec.biasedRelu (N := 50000) (E := 128) a s b := by
  funext i
  obtain ⟨p, q, rfl⟩ : ∃ (p : Fin 50000) (q : Fin 128), i = ix2 p q := ⟨i 0, i 1, eq_ix2 i⟩
  rw [Cert.Spec.biasedRelu_apply]
  unfold Cert.Spec.biasedReluAt
  rw [maximumf_apply, addf_apply, mulf_apply]
  -- the column broadcast along its unit axis reads the column's entry (p, 0)
  have hcol : broadcastInDim S50000x128 ![0, 1] bcast_S50000x1_S50000x128_0_1 s (ix2 p q) = s (ix2 p (0 : Fin 1)) :=
    Idealize.ShloMosaic.Column.broadcastInDim_a1_ab_apply (a := 50000) (b := 128) (by decide) s ![0, 1] rfl rfl
      bcast_S50000x1_S50000x128_0_1 p q
  -- the bias vector laid out as one row and broadcast down the rows reads the vector's entry q
  have hbias : broadcastInDim S50000x128 ![0, 1] bcast_S1x128_S50000x128_0_1
        (broadcastInDim S1x128 ![1] bcast_S128_S1x128_1 b) (ix2 p q) = b (ix1 q) :=
    Cert.RowBias.hostRows_apply (M := 50000) (n := 128) b bcast_S128_S1x128_1 bcast_S1x128_S50000x128_0_1 p q
  -- the scalar zero broadcast to the whole shape is the zero's word everywhere
  have hzero : broadcastInDim S50000x128 ![] bcast_S_S50000x128 (constant (F := Ideal) S_ .f32 0x00000000#32) (ix2 p q)
      = Ideal.ofBits .f32 0x00000000#32 :=
    (Cert.RowBias.splat_apply (constant (F := Ideal) S_ .f32 0x00000000#32) bcast_S_S50000x128 (ix2 p q)).trans
      (constant_apply (s := S_) (φ := .f32) 0x00000000#32 ix0)
  rw [hcol, hbias, hzero]

/-- The host's tanh (u · A + a) · B + b. -/
theorem head_eq (u : FVec Ideal S10000x128 .f32) (A : FVec Ideal S128x64 .f32) (a : FVec Ideal S64 .f32)
    (B : FVec Ideal S64x64 .f32) (b : FVec Ideal S64 .f32) :
    addf (Host.dotGeneral dot_S10000x64_S64x64_S10000x64_1_0_0_1_n_n none
          (Host.tanh (addf (Host.dotGeneral dot_S10000x128_S128x64_S10000x64_1_0_0_1_n_n none u A)
            (broadcastInDim S10000x64 ![0, 1] bcast_S1x64_S10000x64_0_1 (broadcastInDim S1x64 ![1] bcast_S64_S1x64_1 a)))) B)
        (broadcastInDim S10000x64 ![0, 1] bcast_S1x64_S10000x64_0_1 (broadcastInDim S1x64 ![1] bcast_S64_S1x64_1 b))
      = Cert.Spec.head (N := 10000) (D := 128) (H := 64) (O := 64) u A a B b := by
  funext i
  obtain ⟨p, q, rfl⟩ : ∃ (p : Fin 10000) (q : Fin 64), i = ix2 p q := ⟨i 0, i 1, eq_ix2 i⟩
  rw [Cert.Spec.head_apply]
  unfold Cert.Spec.headAt
  rw [addf_apply]
  -- the hidden layer tanh (u · A + a), entry (p, k): the inner product is the sum over the 128 features,
  -- the bias row reads the vector's entry k, and the host's tanh acts entrywise
  have hhid : ∀ k : Fin 64,
      Host.tanh (addf (Host.dotGeneral dot_S10000x128_S128x64_S10000x64_1_0_0_1_n_n none u A)
          (broadcastInDim S10000x64 ![0, 1] bcast_S1x64_S10000x64_0_1 (broadcastInDim S1x64 ![1] bcast_S64_S1x64_1 a))) (ix2 p k)
        = Ideal.tanh ((∑ j : Fin 128, u (ix2 p j) * A (ix2 j k)) + a (ix1 k)) := by
    intro k
    have hdot : Host.dotGeneral dot_S10000x128_S128x64_S10000x64_1_0_0_1_n_n none u A (ix2 p k)
        = ∑ j : Fin 128, u (ix2 p j) * A (ix2 j k) :=
      Cert.PlainDot.dotGeneral_apply (M := 10000) (K := 128) (N := 64) none .single u A p k
    have hbias : broadcastInDim S10000x64 ![0, 1] bcast_S1x64_S10000x64_0_1
          (broadcastInDim S1x64 ![1] bcast_S64_S1x64_1 a) (ix2 p k) = a (ix1 k) :=
      Cert.RowBias.hostRows_apply (M := 10000) (n := 64) a bcast_S64_S1x64_1 bcast_S1x64_S10000x64_0_1 p k
    show FloatOps.hostUnary .tanh (addf (Host.dotGeneral dot_S10000x128_S128x64_S10000x64_1_0_0_1_n_n none u A)
          (broadcastInDim S10000x64 ![0, 1] bcast_S1x64_S10000x64_0_1 (broadcastInDim S1x64 ![1] bcast_S64_S1x64_1 a)) (ix2 p k)) = _
    rw [Ideal.hostUnary_tanh_def, addf_apply, hdot, hbias]
  -- the outer product is the sum over the 64 hidden units of the hidden layer's entry (p, k) times B[k, q]
  have hout : Host.dotGeneral dot_S10000x64_S64x64_S10000x64_1_0_0_1_n_n none
        (Host.tanh (addf (Host.dotGeneral dot_S10000x128_S128x64_S10000x64_1_0_0_1_n_n none u A)
          (broadcastInDim S10000x64 ![0, 1] bcast_S1x64_S10000x64_0_1 (broadcastInDim S1x64 ![1] bcast_S64_S1x64_1 a)))) B (ix2 p q)
      = ∑ k : Fin 64, Ideal.tanh ((∑ j : Fin 128, u (ix2 p j) * A (ix2 j k)) + a (ix1 k)) * B (ix2 k q) :=
    (Cert.PlainDot.dotGeneral_apply (M := 10000) (K := 64) (N := 64) none .single _ B p q).trans
      (Finset.sum_congr rfl fun k _ => by rw [hhid k])
  -- the output bias row reads the vector's entry q
  have hbias : broadcastInDim S10000x64 ![0, 1] bcast_S1x64_S10000x64_0_1
        (broadcastInDim S1x64 ![1] bcast_S64_S1x64_1 b) (ix2 p q) = b (ix1 q) :=
    Cert.RowBias.hostRows_apply (M := 10000) (n := 64) b bcast_S64_S1x64_1 bcast_S1x64_S10000x64_0_1 p q
  rw [hout, hbias]

end Cert.ReferenceIdeal.RefValue

end
-- ==== Proof.RefStructure.lean ====
/-
  The reference's two composed terms, folded into the network's stages.

  Written out, the reference's results repeat the same few chains of host operations many times over (the first
  layer's output sits inside the second's, and both inside the scores). Named once — the degree-norm column, the edge
  aggregation, the user-row gather, one layer, the head — the results are two short compositions. The folding is a
  matter of the terms' shape only, so it is stated for any float family.
-/
import proofs.«122954_j73830487818453_1_alg».proof.Proof.Gen.ReferenceIdeal.Run

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- max (number of edges with this end at the node, 1) ^ (-1/2), as a column. -/
def normCol (idx : (⟨S1600000, .i32⟩ : BufTy).Contents (Elt F)) : (⟨S50000x1, .f32⟩ : BufTy).Contents (Elt F) :=
  Host.powf (broadcastInDim S50000x1 ![0] bcast_S50000_S50000x1_0
      (maximumf (Host.scatterAdd scatter_S50000_S1600000x1_S1600000_n_0_0_1
          (broadcastInDim S50000 ![] bcast_S_S50000 (constant S_ .f32 0x00000000#32))
          (broadcastInDim S1600000x1 ![0] bcast_S1600000_S1600000x1_0 idx)
          (broadcastInDim S1600000 ![] bcast_S_S1600000 (constant S_ .f32 0x3F800000#32)))
        (broadcastInDim S50000 ![] bcast_S_S50000 (constant S_ .f32 0x3F800000#32))))
    (broadcastInDim S50000x1 ![] bcast_S_S50000x1 (constant S_ .f32 0xBF000000#32))

/-- Messages x[src[e]] summed into row dst[e], over all edges e. -/
def aggregate (src dst : (⟨S1600000, .i32⟩ : BufTy).Contents (Elt F)) (x : (⟨S50000x128, .f32⟩ : BufTy).Contents (Elt F)) :
    (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (Host.gather gather_S50000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-- The rows h[users[u]]. -/
def userRows (users : (⟨S10000, .i32⟩ : BufTy).Contents (Elt F)) (h : (⟨S50000x128, .f32⟩ : BufTy).Contents (Elt F)) :
    (⟨S10000x128, .f32⟩ : BufTy).Contents (Elt F) :=
  Host.gather gather_S50000x128_S10000x1_S10000x128_1_0_n_n_0_1_1128 h
    (broadcastInDim S10000x1 ![0] bcast_S10000_S10000x1_0
      (select (cmpi .slt users (broadcastInDim S10000 ![] bcast_S_S10000 (constantI S_ 32 0#32)))
        (addi users (broadcastInDim S10000 ![] bcast_S_S10000 (constantI S_ 32 50000#32))) users))

/-- One layer as the reference writes it: relu (aggregate ((h · W) · cs) · cd + b). -/
def layer (h : (⟨S50000x128, .f32⟩ : BufTy).Contents (Elt F)) (W : (⟨S128x128, .f32⟩ : BufTy).Contents (Elt F))
    (b : (⟨S128, .f32⟩ : BufTy).Contents (Elt F)) (src dst : (⟨S1600000, .i32⟩ : BufTy).Contents (Elt F)) :
    (⟨S50000x128, .f32⟩ : BufTy).Contents (Elt F) :=
  maximumf (addf (mulf (aggregate src dst
          (mulf (Host.dotGeneral dot_S50000x128_S128x128_S50000x128_1_0_0_1_n_n none h W)
            (broadcastInDim S50000x128 ![0, 1] bcast_S50000x1_S50000x128_0_1 (normCol src))))
        (broadcastInDim S50000x128 ![0, 1] bcast_S50000x1_S50000x128_0_1 (normCol dst)))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The head as the reference writes it: tanh (u · A + a) · B + b. -/
def headOps (u : (⟨S10000x128, .f32⟩ : BufTy).Contents (Elt F)) (A : (⟨S128x64, .f32⟩ : BufTy).Contents (Elt F))
    (a : (⟨S64, .f32⟩ : BufTy).Contents (Elt F)) (B : (⟨S64x64, .f32⟩ : BufTy).Contents (Elt F))
    (b : (⟨S64, .f32⟩ : BufTy).Contents (Elt F)) : (⟨S10000x64, .f32⟩ : BufTy).Contents (Elt F) :=
  addf (Host.dotGeneral dot_S10000x64_S64x64_S10000x64_1_0_0_1_n_n none
        (Host.tanh (addf (Host.dotGeneral dot_S10000x128_S128x64_S10000x64_1_0_0_1_n_n none u A)
          (broadcastInDim S10000x64 ![0, 1] bcast_S1x64_S10000x64_0_1 (broadcastInDim S1x64 ![1] bcast_S64_S1x64_1 a)))) B)
    (broadcastInDim S10000x64 ![0, 1] bcast_S1x64_S10000x64_0_1 (broadcastInDim S1x64 ![1] bcast_S64_S1x64_1 b))

variable (m : (ℓ : Loc nD τ sig) → Buf (Elt F) ℓ)

set_option maxRecDepth 16384 in
/-- The reference's second result is two layers. -/
theorem res_layers (c : Dev nD) : res_main_v54 (F := F) m c
    = layer (layer (m ((c.tc : Thread nD τ).loc main_arg0)) (m ((c.tc : Thread nD τ).loc main_arg1)) (m ((c.tc : Thread nD τ).loc main_arg2))
          (m ((c.tc : Thread nD τ).loc main_arg9)) (m ((c.tc : Thread nD τ).loc main_arg10)))
        (m ((c.tc : Thread nD τ).loc main_arg3)) (m ((c.tc : Thread nD τ).loc main_arg4))
        (m ((c.tc : Thread nD τ).loc main_arg9)) (m ((c.tc : Thread nD τ).loc main_arg10)) := by
  unfold res_main_v54 layer aggregate normCol
  rfl

set_option maxRecDepth 16384 in
/-- The reference's first result is the head on the user rows of the two layers. -/
theorem res_head (c : Dev nD) : res_main_v70 (F := F) m c
    = headOps (userRows (m ((c.tc : Thread nD τ).loc main_arg11))
          (layer (layer (m ((c.tc : Thread nD τ).loc main_arg0)) (m ((c.tc : Thread nD τ).loc main_arg1)) (m ((c.tc : Thread nD τ).loc main_arg2))
              (m ((c.tc : Thread nD τ).loc main_arg9)) (m ((c.tc : Thread nD τ).loc main_arg10)))
            (m ((c.tc : Thread nD τ).loc main_arg3)) (m ((c.tc : Thread nD τ).loc main_arg4))
            (m ((c.tc : Thread nD τ).loc main_arg9)) (m ((c.tc : Thread nD τ).loc main_arg10))))
        (m ((c.tc : Thread nD τ).loc main_arg5)) (m ((c.tc : Thread nD τ).loc main_arg6))
        (m ((c.tc : Thread nD τ).loc main_arg7)) (m ((c.tc : Thread nD τ).loc main_arg8)) := by
  unfold res_main_v70 headOps userRows layer aggregate normCol
  rfl

end Cert.ReferenceIdeal.RefValue

end
-- ==== Proof.Bridge.lean ====
/-
  The reference's two results are the kernel program's functions of the same arguments.

  Folded into its stages (RefStructure), the reference is two layers and a head. On the extended reals a layer is the
  specification's biased, rectified, column-scaled aggregate of the scaled product, and the head is the specification's
  head (RefOps): these are exactly the stages the kernel side's run names. The degree-norm columns, the edge
  aggregation and the user-row gather are the same host chains in both programs' texts, so once the arguments are
  identified the two sides are one term.
-/
import proofs.«122954_j73830487818453_1_alg».proof.Proof.KernelValue
import proofs.«122954_j73830487818453_1_alg».proof.Proof.RefOps
import proofs.«122954_j73830487818453_1_alg».proof.Proof.RefStructure

noncomputable section

namespace Cert.ReferenceIdeal.RefValue

open Cert.ReferenceIdeal Cert.ReferenceIdeal.Gen Cert.ReferenceIdeal.Value
open Idealize.ShloMosaic Idealize.ShloMosaic.TcCoe Idealize.SL.Sem

/-- One layer of the reference, on the extended reals, in the specification's stages. -/
theorem layer_eq (h : FVec Ideal S50000x128 .f32) (W : FVec Ideal S128x128 .f32) (b : FVec Ideal S128 .f32)
    (src dst : (⟨S1600000, .i32⟩ : BufTy).Contents (Elt Ideal)) :
    layer (F := Ideal) h W b src dst
      = Cert.Spec.biasedRelu (N := 50000) (E := 128)
          (aggregate (F := Ideal) src dst (Cert.Spec.scaledProduct (N := 50000) (D := 128) (E := 128) h W (normCol (F := Ideal) src)))
          (normCol (F := Ideal) dst) b := by
  unfold layer
  rw [scaledProduct_eq, biasedRelu_eq]

/-- The reference's head, on the extended reals, is the specification's. -/
theorem headOps_eq (u : FVec Ideal S10000x128 .f32) (A : FVec Ideal S128x64 .f32) (a : FVec Ideal S64 .f32)
    (B : FVec Ideal S64x64 .f32) (b : FVec Ideal S64 .f32) :
    headOps (F := Ideal) u A a B b = Cert.Spec.head (N := 10000) (D := 128) (H := 64) (O := 64) u A a B b := by
  unfold headOps
  exact head_eq u A a B b

/-- The three host chains are the same operations in both programs' texts. -/
theorem normCol_eq (x : (⟨S1600000, .i32⟩ : BufTy).Contents (Elt Ideal)) :
    Cert.KernelIdeal.Val.normCol (F := Ideal) x = normCol (F := Ideal) x := rfl
theorem aggregate_eq (s d : (⟨S1600000, .i32⟩ : BufTy).Contents (Elt Ideal)) (x : (⟨S50000x128, .f32⟩ : BufTy).Contents (Elt Ideal)) :
    Cert.KernelIdeal.Val.aggregate (F := Ideal) s d x = aggregate (F := Ideal) s d x := rfl
theorem userRows_eq (u : (⟨S10000, .i32⟩ : BufTy).Contents (Elt Ideal)) (h : (⟨S50000x128, .f32⟩ : BufTy).Contents (Elt Ideal)) :
    Cert.KernelIdeal.Val.userRows (F := Ideal) u h = userRows (F := Ideal) u h := rfl

end Cert.ReferenceIdeal.RefValue

namespace Cert.Proof.Bridge

open Idealize.ShloMosaic Idealize.ShloMosaic.TcCoe Idealize.SL.Sem
open Cert.ReferenceIdeal.RefValue

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The second layer's output. -/
theorem h_eq (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v54 (F := Ideal) m' c = Cert.KernelIdeal.Val.h2 m c := by
  rw [res_layers, layer_eq, layer_eq, e0, e1, e2, e3, e4, e9, e10]
  unfold Cert.KernelIdeal.Val.h2 Cert.KernelIdeal.Val.hw2 Cert.KernelIdeal.Val.h1 Cert.KernelIdeal.Val.hw1
  simp only [normCol_eq, aggregate_eq]

/-- The scores. -/
theorem scores_eq (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v70 (F := Ideal) m' c = Cert.KernelIdeal.Val.scores m c := by
  rw [res_head, headOps_eq, layer_eq, layer_eq, e0, e1, e2, e3, e4, e5, e6, e7, e8, e9, e10, e11]
  unfold Cert.KernelIdeal.Val.scores Cert.KernelIdeal.Val.h2 Cert.KernelIdeal.Val.hw2 Cert.KernelIdeal.Val.h1 Cert.KernelIdeal.Val.hw1
  simp only [normCol_eq, aggregate_eq, userRows_eq]

end Cert.Proof.Bridge

end
-- ==== Proof.lean ====
/-
  A two-layer graph convolution with a perceptron head, as five Pallas kernel regions among host operations, against
  its plain reference: equal on the extended reals.

  With cs, cd the degree-norm columns max (degree, 1) ^ (-1/2) of the source and destination ends of the edges, a layer
  maps node features h to  max (A (h · W · cs) · cd + b, 0),  A the edge aggregation (gather the rows at the source
  indices, scatter-add them at the destination indices); the results are the second layer's output h2 and
  tanh (h2[users] · Ws1 + bs1) · Ws2 + bs2.  The kernel program computes  (h · W) · cs  in one region (the operands rounded
  to bf16 on the way into the product, which is the identity on the extended reals),  max (· · cd + b, 0)  in a second, and
  the head in a fifth; the columns, the aggregation and the row gather are the same host operations in both programs.
  So the two programs are one function of the arguments, stage by stage: each region's output array is its
  specification of the arrays it finds (the region modules, block by block and then by the cover of the array by its
  blocks), each reference stage is the same specification (a host product is the sum over the contracted index), and
  the host chains in between are carried unopened.  Nothing here needs the inputs finite: no law beyond reading each
  operation at an index is used.
-/
import proofs.«122954_j73830487818453_1_alg».proof.Defs
import proofs.«122954_j73830487818453_1_alg».proof.Proof.Gen.Kernel
import proofs.«122954_j73830487818453_1_alg».proof.Proof.KernelFrame
import proofs.«122954_j73830487818453_1_alg».proof.Proof.Gen.KernelIdeal
import proofs.«122954_j73830487818453_1_alg».proof.Proof.KernelIdealFrame
import proofs.«122954_j73830487818453_1_alg».proof.Proof.KernelValue
import proofs.«122954_j73830487818453_1_alg».proof.Proof.Gen.ReferenceIdeal
import proofs.«122954_j73830487818453_1_alg».proof.Proof.Gen.ReferenceIdeal.Run
import proofs.«122954_j73830487818453_1_alg».proof.Proof.Bridge
import proofs.«122954_j73830487818453_1_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealization is the program's own text read on the extended reals. -/
theorem preserves : Cert.preserves_Kernel_KernelIdeal := trivial

/-- From memories that agree on the arguments both programs end at the same scores and the same second-layer
    output: the kernel program's run names them, and the reference's composed terms are those functions. -/
theorem algebraic : Cert.algebraic_KernelIdeal_ReferenceIdeal := by
  intro m ρ m' ρ' _ hagree
  refine ⟨fun c => Cert.KernelIdeal.Val.scores m c, fun c => Cert.KernelIdeal.Val.h2 m c, Cert.KernelIdeal.Val.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11⟩ := hagree c
  exact ⟨(h c).1.trans (Bridge.scores_eq m m' c e0 e1 e2 e3 e4 e5 e6 e7 e8 e9 e10 e11),
    (h c).2.1.trans (Bridge.h_eq m m' c e0 e1 e2 e3 e4 e9 e10), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
